-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S640000x128 : Shape := ⟨2, ![640000, 128]⟩
abbrev S100000 : Shape := ⟨1, ![100000]⟩
abbrev S384x64 : Shape := ⟨2, ![384, 64]⟩
abbrev S64 : Shape := ⟨1, ![64]⟩
abbrev S64x128 : Shape := ⟨2, ![64, 128]⟩
abbrev S128 : Shape := ⟨1, ![128]⟩
abbrev S256x64 : Shape := ⟨2, ![256, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S384x64 : S_.BroadcastsInDim S384x64 (![] : Fin 0 → Fin S384x64.rank)
  reducesTo_S384x64_S_d0_1 : S384x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S256x64 : S_.BroadcastsInDim S256x64 (![] : Fin 0 → Fin S256x64.rank)
  reducesTo_S256x64_S_d0_1 : S256x64.ReducesTo [0, 1] S_
  bcast_S_S2x640000 : S_.BroadcastsInDim S2x640000 (![] : Fin 0 → Fin S2x640000.rank)
  reducesTo_S2x640000_S_d0_1 : S2x640000.ReducesTo [0, 1] S_

variable [Facts]

def fn_part4 {F : FTy → Type} [FloatOps F] (main_arg1 : IVec S2x640000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x640000 32 := broadcastInDim S2x640000 ![] bcast_S_S2x640000 main_c_26
  let main_v70 : IVec S2x640000 1 := cmpi .sge main_arg1 main_v69
  let main_c_27 : IVec S_ 1 := constantI S_ 1 1#1
  let main_v71 : IVec S_ 1 := (fun x v => Host.reduce IntOp.andi x v reducesTo_S2x640000_S_d0_1 h_S_) main_v70 main_c_27
  let main_v72 : IVec S_ 1 := andi main_v68 main_v71
  let main_c_28 : IVec S_ 32 := constantI S_ 32 100000#32
  let main_v73 : IVec S2x640000 32 := broadcastInDim S2x640000 ![] bcast_S_S2x640000 main_c_28
  let main_v74 : IVec S2x640000 1 := cmpi .slt main_arg1 main_v73
  let main_c_29 : IVec S_ 1 := constantI S_ 1 1#1
  let main_v75 : IVec S_ 1 := (fun x v => Host.reduce IntOp.andi x v reducesTo_S2x640000_S_d0_1 h_S_) main_v74 main_c_29
  let main_v76 : IVec S_ 1 := andi main_v72 main_v75
  main_v76

def fn_part3 {F : FTy → Type} [FloatOps F] (main_arg1 : IVec S2x640000 32) (main_arg13 : FVec F S128 .f32) (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_v63 main_v67

def fn_part2 {F : FTy → Type} [FloatOps F] (main_arg1 : IVec S2x640000 32) (main_arg9 : FVec F S64 .f32) (main_arg10 : FVec F S64x128 .f32) (main_arg11 : FVec F S128 .f32) (main_arg12 : FVec F S128 .f32) (main_arg13 : FVec F S128 .f32) (main_arg14 : FVec F S128 .f32) (main_arg15 : FVec F S128 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg10
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg1 main_arg13 main_arg14 main_arg15 main_v48 main_v49 main_v50

def fn_part1 {F : FTy → Type} [FloatOps F] (main_arg1 : IVec S2x640000 32) (main_arg6 : FVec F S64x128 .f32) (main_arg7 : FVec F S128 .f32) (main_arg8 : FVec F S256x64 .f32) (main_arg9 : FVec F S64 .f32) (main_arg10 : FVec F S64x128 .f32) (main_arg11 : FVec F S128 .f32) (main_arg12 : FVec F S128 .f32) (main_arg13 : FVec F S128 .f32) (main_arg14 : FVec F S128 .f32) (main_arg15 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x64 .f32 := Host.absf main_arg8
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg1 main_arg9 main_arg10 main_arg11 main_arg12 main_arg13 main_arg14 main_arg15 main_v33

def fn {F : FTy → Type} [FloatOps F] (main_arg0 : FVec F S100000x128 .f32) (main_arg1 : IVec S2x640000 32) (main_arg2 : FVec F S640000x128 .f32) (main_arg3 : IVec S100000 32) (main_arg4 : FVec F S384x64 .f32) (main_arg5 : FVec F S64 .f32) (main_arg6 : FVec F S64x128 .f32) (main_arg7 : FVec F S128 .f32) (main_arg8 : FVec F S256x64 .f32) (main_arg9 : FVec F S64 .f32) (main_arg10 : FVec F S64x128 .f32) (main_arg11 : FVec F S128 .f32) (main_arg12 : FVec F S128 .f32) (main_arg13 : FVec F S128 .f32) (main_arg14 : FVec F S128 .f32) (main_arg15 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S640000x128 .f32 := Host.absf main_arg2
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S384x64 .f32 := Host.absf main_arg4
  let main_cst_2 : FVec F S_ .f32 := constant S_ .f32 0x7F800000#32
  let main_v10 : FVec F S384x64 .f32 := broadcastInDim S384x64 ![] bcast_S_S384x64 main_cst_2
  let main_v11 : IVec S384x64 1 := cmpf .olt main_v9 main_v10
  let main_c_3 : IVec S_ 1 := constantI S_ 1 1#1
  let main_v12 : IVec S_ 1 := (fun x v => Host.reduce IntOp.andi x v reducesTo_S384x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x640000 : Shape := ⟨2, ![2, 640000]⟩
abbrev S640000x128 : Shape := ⟨2, ![640000, 128]⟩
abbrev S100000 : Shape := ⟨1, ![100000]⟩
abbrev S384x64 : Shape := ⟨2, ![384, 64]⟩
abbrev S64 : Shape := ⟨1, ![64]⟩
abbrev S64x128 : Shape := ⟨2, ![64, 128]⟩
abbrev S128 : Shape := ⟨1, ![128]⟩
abbrev S256x64 : Shape := ⟨2, ![256, 64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S1x64 : Shape := ⟨2, ![1, 64]⟩
abbrev S1x128 : Shape := ⟨2, ![1, 128]⟩
abbrev S2000x128 : Shape := ⟨2, ![2000, 128]⟩
abbrev S2000x384 : Shape := ⟨2, ![2000, 384]⟩
abbrev S2000x64 : Shape := ⟨2, ![2000, 64]⟩
abbrev S2000 : Shape := ⟨1, ![2000]⟩
abbrev S2000x1 : Shape := ⟨2, ![2000, 1]⟩
abbrev S100000x1 : Shape := ⟨2, ![100000, 1]⟩
abbrev S2000x256 : Shape := ⟨2, ![2000, 256]⟩

abbrev nBuf : Space → Nat
  | .hbm => 93
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S640000x128, .f32⟩
  | .hbm, ⟨3, _⟩ => ⟨S100000, .i32⟩
  | .hbm, ⟨4, _⟩ => ⟨S384x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S256x64, .f32⟩
  | .hbm, ⟨9, _⟩ => ⟨S64, .f32⟩
  | .hbm, ⟨10, _⟩ => ⟨S64x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S1x640000, .i32⟩
  | .hbm, ⟨17, _⟩ => ⟨S640000, .i32⟩
  | .hbm, ⟨18, _⟩ => ⟨S1x640000, .i32⟩
  | .hbm, ⟨19, _⟩ => ⟨S640000, .i32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S1, .i32⟩
  | .hbm, ⟨29, _⟩ => ⟨S_, .i32⟩
  | .hbm, ⟨30, _⟩ => ⟨S640000x1, .i32⟩
  | .hbm, ⟨31, _⟩ => ⟨S640000x1, .i1⟩
  | .hbm, ⟨32, _⟩ => ⟨S1x1, .i32⟩
  | .hbm, ⟨33, _⟩ => ⟨S640000x1, .i32⟩
  | .hbm, ⟨34, _⟩ => ⟨S640000x1, .i1⟩
  | .hbm, ⟨35, _⟩ => ⟨S640000x1, .i1⟩
  | .hbm, ⟨36, _⟩ => ⟨S_, .i1⟩
  | .hbm, ⟨37, _⟩ => ⟨S640000, .i1⟩
  | .hbm, ⟨38, _⟩ => ⟨S640000x128, .f32⟩
  | .hbm, ⟨39, _⟩ => ⟨S640000x128, .i1⟩
  | .hbm, ⟨40, _⟩ => ⟨S_, .f32⟩
  | .hbm, ⟨41, _⟩ => ⟨S640000x128, .f32⟩
  | .hbm, ⟨42, _⟩ => ⟨S640000x128, .f32⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S1, .i32⟩
  | .hbm, ⟨52, _⟩ => ⟨S_, .i32⟩
  | .hbm, ⟨53, _⟩ => ⟨S640000x1, .i32⟩
  | .hbm, ⟨54, _⟩ => ⟨S640000x1, .i1⟩
  | .hbm, ⟨55, _⟩ => ⟨S1x1, .i32⟩
  | .hbm, ⟨56, _⟩ => ⟨S640000x1, .i32⟩
  | .hbm, ⟨57, _⟩ => ⟨S640000x1, .i1⟩
  | .hbm, ⟨58, _⟩ => ⟨S640000x1, .i1⟩
  | .hbm, ⟨59, _⟩ => ⟨S_, .i1⟩
  | .hbm, ⟨60, _⟩ => ⟨S640000, .i1⟩
  | .hbm, ⟨61, _⟩ => ⟨S640000x128, .f32⟩
  | .hbm, ⟨62, _⟩ => ⟨S640000x128, .i1⟩
  | .hbm, ⟨63, _⟩ => ⟨S_, .f32⟩
  | .hbm, ⟨64, _⟩ => ⟨S640000x128, .f32⟩
  | .hbm, ⟨65, _⟩ => ⟨S640000x128, .f32⟩
  | .hbm, ⟨66, _⟩ => ⟨S1x64, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S640000x128, .f32⟩
  | .hbm, ⟨71, _⟩ => ⟨S640000x128, .f32⟩
  | .hbm, ⟨72, _⟩ => ⟨S_, .f32⟩
  | .hbm, ⟨73, _⟩ => ⟨S100000x128, .f32⟩
  | .hbm, ⟨74, _⟩ => ⟨S640000x1, .i32⟩
  | .hbm, ⟨75, _⟩ => ⟨S100000x128, .f32⟩
  | .hbm, ⟨76, _⟩ => ⟨S_, .f32⟩
  | .hbm, ⟨77, _⟩ => ⟨S640000, .f32⟩
  | .hbm, ⟨78, _⟩ => ⟨S_, .f32⟩
  | .hbm, ⟨79, _⟩ => ⟨S100000, .f32⟩
  | .hbm, ⟨80, _⟩ => ⟨S640000x1, .i32⟩
  | .hbm, ⟨81, _⟩ => ⟨S100000, .f32⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S100000x1, .f32⟩
  | .hbm, ⟨86, _⟩ => ⟨S100000x128, .f32⟩
  | .hbm, ⟨87, _⟩ => ⟨S100000x128, .f32⟩
  | .hbm, ⟨88, _⟩ => ⟨S1x64, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S384x64, .f32⟩
  | .local _ .vmem, ⟨7, _⟩ => ⟨S1x64, .f32⟩
  | .local _ .vmem, ⟨8, _⟩ => ⟨S64x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S256x64, .f32⟩
  | .local _ .vmem, ⟨21, _⟩ => ⟨S1x64, .f32⟩
  | .local _ .vmem, ⟨22, _⟩ => ⟨S64x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v4 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v5 : Ref sig .tc := ⟨.hbm, 65, rfl⟩
abbrev main_v6 : Ref sig .tc := ⟨.hbm, 66, rfl⟩
abbrev main_v7 : Ref sig .tc := ⟨.hbm, 67, rfl⟩
abbrev main_v8 : Ref sig .tc := ⟨.hbm, 68, rfl⟩
abbrev main_v9 : Ref sig .tc := ⟨.hbm, 69, rfl⟩
abbrev main_v10_0 : Ref sig .tc := ⟨.hbm, 70, rfl⟩
abbrev main_v10_1 : Ref sig .tc := ⟨.hbm, 71, rfl⟩
abbrev main_cst : Ref sig .tc := ⟨.hbm, 72, rfl⟩
abbrev main_v11 : Ref sig .tc := ⟨.hbm, 73, rfl⟩
abbrev main_v12 : Ref sig .tc := ⟨.hbm, 74, rfl⟩
abbrev main_v13 : Ref sig .tc := ⟨.hbm, 75, rfl⟩
abbrev main_cst_0 : Ref sig .tc := ⟨.hbm, 76, rfl⟩
abbrev main_v14 : Ref sig .tc := ⟨.hbm, 77, rfl⟩
abbrev main_cst_1 : Ref sig .tc := ⟨.hbm, 78, rfl⟩
abbrev main_v15 : Ref sig .tc := ⟨.hbm, 79, rfl⟩
abbrev main_v16 : Ref sig .tc := ⟨.hbm, 80, rfl⟩
abbrev main_v17 : Ref sig .tc := ⟨.hbm, 81, rfl⟩
abbrev main_cst_2 : Ref sig .tc := ⟨.hbm, 82, rfl⟩
abbrev main_v18 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨1, ![320], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  shapeCasts_S64_S1x64 : S64.ShapeCasts S1x64
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  concatenates_S2000x128_S2000x128_S2000x128_S2000x384_d1 : Shape.Concatenates [S2000x128, S2000x128, S2000x128] S2000x384 1
  bitsLt_bf16_f32 : FTy.bits .bf16 < FTy.bits .f32
  inb_S384x64_S384x64_0_0 : ∀ a, (![0, 0] : Fin 2 → Nat) a + S384x64.size a ≤ S384x64.size a
  h_S384x64 : 0 < S384x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S2000x128_S2000x128_S2000x256_d1 : Shape.Concatenates [S2000x128, S2000x128] S2000x256 1
  inb_S256x64_S256x64_0_0 : ∀ a, (![0, 0] : Fin 2 → Nat) a + S256x64.size a ≤ S256x64.size a
  h_S256x64 : 0 < S256x64.numel
  gather_S100000x128_S640000x1_S640000x128_1_0_n_n_0_1_1128_wf : GatherDims.WF S100000x128 S640000x1 S640000x128 [1] [0] [] [0] [] 1 ![1, 128]
  dot_S2000x384_S384x64_S2000x64_1_0_0_1_n_n_wf : DotDims.WF S2000x384 S384x64 S2000x64 [1] [0] [0] [1] [] []
  dot_S2000x64_S64x128_S2000x128_1_0_0_1_n_n_wf : DotDims.WF S2000x64 S64x128 S2000x128 [1] [0] [0] [1] [] []
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S640000x128.size a
  hwx0_0 : ∀ i : grid0.Coords, EltTy.bits .f32 = 32 ∨ (Rect.block (s := S640000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S640000x128.size a
  hwx0_1 : ∀ i : grid0.Coords, EltTy.bits .f32 = 32 ∨ (Rect.block (s := S640000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S640000x128.size a
  hwx0_2 : ∀ i : grid0.Coords, EltTy.bits .f32 = 32 ∨ (Rect.block (s := S640000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x64.size a ≤ S384x64.size a
  hwx0_3 : ∀ i : grid0.Coords, EltTy.bits .f32 = 32 ∨ (Rect.block (s := S384x64) S384x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S640000x128.size a
  hwx0_9 : ∀ i : grid0.Coords, EltTy.bits .f32 = 32 ∨ (Rect.block (s := S640000x128) S2000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S640000x128.size a
  hwx0_10 : ∀ i : grid0.Coords, EltTy.bits .f32 = 32 ∨ (Rect.block (s := S640000x128) S2000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .f32 = 32 ∨ (Rect.block (s := S256x64) S256x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S100000x128.size a
  hwx1_8 : ∀ i : grid1.Coords, EltTy.bits .f32 = 32 ∨ (Rect.block (s := S100000x128) S2000x128.size (cc1_transform_8 i) (hinb1_8 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S2000x384_S384x64_S2000x64_1_0_0_1_n_n : DotDims S2000x384 S384x64 S2000x64 where
  lhsContracting := [1]
  rhsContracting := [0]
  lhsNonContracting := [0]
  rhsNonContracting := [1]
  lhsBatch := []
  rhsBatch := []
  wf := dot_S2000x384_S384x64_S2000x64_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_v4) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S384x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10_0) S2000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10_1) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v27) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S640000x128 : Shape := ⟨2, ![640000, 128]⟩
abbrev S100000 : Shape := ⟨1, ![100000]⟩
abbrev S384x64 : Shape := ⟨2, ![384, 64]⟩
abbrev S64 : Shape := ⟨1, ![64]⟩
abbrev S64x128 : Shape := ⟨2, ![64, 128]⟩
abbrev S128 : Shape := ⟨1, ![128]⟩
abbrev S256x64 : Shape := ⟨2, ![256, 64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x384 : Shape := ⟨2, ![640000, 384]⟩
abbrev S640000x64 : Shape := ⟨2, ![640000, 64]⟩
abbrev S1x64 : Shape := ⟨2, ![1, 64]⟩
abbrev S1x128 : Shape := ⟨2, ![1, 128]⟩
abbrev S100000x1 : Shape := ⟨2, ![100000, 1]⟩
abbrev S100000x256 : Shape := ⟨2, ![100000, 256]⟩
abbrev S100000x64 : Shape := ⟨2, ![100000, 64]⟩

abbrev nBuf : Space → Nat
  | .hbm => 138
  | .vmem => 0
  | .smem => 0
  | _ => 0

abbrev hbmTy0_0 (i : Nat) : BufTy := match i % 128 with
  | 0 => ⟨S100000x128, .f32⟩
  | 1 => ⟨S2x640000, .i32⟩
  | 2 => ⟨S640000x128, .f32⟩
  | 3 => ⟨S100000, .i32⟩
  | 4 => ⟨S384x64, .f32⟩
  | 5 => ⟨S64, .f32⟩
  | 6 => ⟨S64x128, .f32⟩
  | 7 => ⟨S128, .f32⟩
  | 8 => ⟨S256x64, .f32⟩
  | 9 => ⟨S64, .f32⟩
  | 10 => ⟨S64x128, .f32⟩
  | 11 => ⟨S128, .f32⟩
  | 12 => ⟨S128, .f32⟩
  | 13 => ⟨S128, .f32⟩
  | 14 => ⟨S128, .f32⟩
  | 15 => ⟨S128, .f32⟩
  | 16 => ⟨S1x640000, .i32⟩
  | 17 => ⟨S640000, .i32⟩
  | 18 => ⟨S1x640000, .i32⟩
  | 19 => ⟨S640000, .i32⟩
  | 20 => ⟨S_, .i32⟩
  | 21 => ⟨S640000, .i32⟩
  | 22 => ⟨S640000, .i1⟩
  | 23 => ⟨S_, .i32⟩
  | 24 => ⟨S640000, .i32⟩
  | 25 => ⟨S640000, .i32⟩
  | 26 => ⟨S640000, .i32⟩
  | 27 => ⟨S640000x1, .i32⟩
  | 28 => ⟨S640000x128, .f32⟩
  | 29 => ⟨S_, .i32⟩
  | 30 => ⟨S640000, .i32⟩
  | 31 => ⟨S640000, .i1⟩
  | 32 => ⟨S_, .i32⟩
  | 33 => ⟨S640000, .i32⟩
  | 34 => ⟨S640000, .i32⟩
  | 35 => ⟨S640000, .i32⟩
  | 36 => ⟨S640000x1, .i32⟩
  | 37 => ⟨S640000x128, .f32⟩
  | 38 => ⟨S640000x384, .f32⟩
  | 39 => ⟨S640000x64, .f32⟩
  | 40 => ⟨S1x64, .f32⟩
  | 41 => ⟨S640000x64, .f32⟩
  | 42 => ⟨S640000x64, .f32⟩
  | 43 => ⟨S_, .f32⟩
  | 44 => ⟨S640000x64, .f32⟩
  | 45 => ⟨S640000x64, .f32⟩
  | 46 => ⟨S640000x128, .f32⟩
  | 47 => ⟨S1x128, .f32⟩
  | 48 => ⟨S640000x128, .f32⟩
  | 49 => ⟨S640000x128, .f32⟩
  | 50 => ⟨S640000x128, .f32⟩
  | 51 => ⟨S_, .f32⟩
  | 52 => ⟨S100000x128, .f32⟩
  | 53 => ⟨S640000x1, .i32⟩
  | 54 => ⟨S100000x128, .f32⟩
  | 55 => ⟨S_, .f32⟩
  | 56 => ⟨S640000, .f32⟩
  | 57 => ⟨S_, .f32⟩
  | 58 => ⟨S100000, .f32⟩
  | 59 => ⟨S640000x1, .i32⟩
  | 60 => ⟨S100000, .f32⟩
  | 61 => ⟨S_, .f32⟩
  | 62 => ⟨S100000, .f32⟩
  | 63 => ⟨S100000, .f32⟩
  | 64 => ⟨S100000x1, .f32⟩
  | 65 => ⟨S100000x128, .f32⟩
  | 66 => ⟨S100000x128, .f32⟩
  | 67 => ⟨S100000x256, .f32⟩
  | 68 => ⟨S100000x64, .f32⟩
  | 69 => ⟨S1x64, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S100000x128, .f32⟩
  | 76 => ⟨S1x128, .f32⟩
  | 77 => ⟨S100000x128, .f32⟩
  | 78 => ⟨S100000x128, .f32⟩
  | 79 => ⟨S100000x128, .f32⟩
  | 80 => ⟨S_, .f32⟩
  | 81 => ⟨S100000, .f32⟩
  | 82 => ⟨S100000x1, .f32⟩
  | 83 => ⟨S_, .f32⟩
  | 84 => ⟨S100000x1, .f32⟩
  | 85 => ⟨S100000x1, .f32⟩
  | 86 => ⟨S100000x128, .f32⟩
  | 87 => ⟨S100000x128, .f32⟩
  | 88 => ⟨S100000x128, .f32⟩
  | 89 => ⟨S_, .f32⟩
  | 90 => ⟨S100000, .f32⟩
  | 91 => ⟨S100000x1, .f32⟩
  | 92 => ⟨S_, .f32⟩
  | 93 => ⟨S100000x1, .f32⟩
  | 94 => ⟨S100000x1, .f32⟩
  | 95 => ⟨S100000x128, .f32⟩
  | 96 => ⟨S100000x128, .f32⟩
  | 97 => ⟨S_, .f32⟩
  | 98 => ⟨S100000x1, .f32⟩
  | 99 => ⟨S100000x1, .f32⟩
  | 100 => ⟨S100000x1, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S1x128, .f32⟩
  | 107 => ⟨S100000x128, .f32⟩
  | 108 => ⟨S100000x128, .f32⟩
  | 109 => ⟨S_, .f32⟩
  | 110 => ⟨S640000, .f32⟩
  | 111 => ⟨S640000x1, .f32⟩
  | 112 => ⟨S_, .f32⟩
  | 113 => ⟨S640000x1, .f32⟩
  | 114 => ⟨S640000x1, .f32⟩
  | 115 => ⟨S640000x128, .f32⟩
  | 116 => ⟨S640000x128, .f32⟩
  | 117 => ⟨S640000x128, .f32⟩
  | 118 => ⟨S_, .f32⟩
  | 119 => ⟨S640000, .f32⟩
  | 120 => ⟨S640000x1, .f32⟩
  | 121 => ⟨S_, .f32⟩
  | 122 => ⟨S640000x1, .f32⟩
  | 123 => ⟨S640000x1, .f32⟩
  | 124 => ⟨S640000x128, .f32⟩
  | 125 => ⟨S640000x128, .f32⟩
  | 126 => ⟨S_, .f32⟩
  | 127 => ⟨S640000x1, .f32⟩
  | _ => ⟨S100000x128, .f32⟩

abbrev hbmTy0_1 (i : Nat) : BufTy := match i % 128 with
  | 0 => ⟨S640000x1, .f32⟩
  | 1 => ⟨S640000x1, .f32⟩
  | 2 => ⟨S640000x128, .f32⟩
  | 3 => ⟨S640000x128, .f32⟩
  | 4 => ⟨S1x128, .f32⟩
  | 5 => ⟨S640000x128, .f32⟩
  | 6 => ⟨S640000x128, .f32⟩
  | 7 => ⟨S1x128, .f32⟩
  | 8 => ⟨S640000x128, .f32⟩
  | 9 => ⟨S640000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call0_cst : Ref sig .tc := ⟨.hbm, 43, rfl⟩
abbrev main_call0_v0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call1_cst : Ref sig .tc := ⟨.hbm, 72, rfl⟩
abbrev main_call1_v0 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_6 : Ref sig .tc := ⟨.hbm, 80, rfl⟩
abbrev main_v52 : Ref sig .tc := ⟨.hbm, 81, rfl⟩
abbrev main_v53 : Ref sig .tc := ⟨.hbm, 82, rfl⟩
abbrev main_cst_7 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_8 : Ref sig .tc := ⟨.hbm, 89, rfl⟩
abbrev main_v59 : Ref sig .tc := ⟨.hbm, 90, rfl⟩
abbrev main_v60 : Ref sig .tc := ⟨.hbm, 91, rfl⟩
abbrev main_cst_9 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_10 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_11 : Ref sig .tc := ⟨.hbm, 109, rfl⟩
abbrev main_v76 : Ref sig .tc := ⟨.hbm, 110, rfl⟩
abbrev main_v77 : Ref sig .tc := ⟨.hbm, 111, rfl⟩
abbrev main_cst_12 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_13 : Ref sig .tc := ⟨.hbm, 118, rfl⟩
abbrev main_v83 : Ref sig .tc := ⟨.hbm, 119, rfl⟩
abbrev main_v84 : Ref sig .tc := ⟨.hbm, 120, rfl⟩
abbrev main_cst_14 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_15 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x128_S640000x384_d1 : Shape.Concatenates [S640000x128, S640000x128, S640000x128] S640000x384 1
  bcast_S64_S1x64_1 : S64.BroadcastsInDim S1x64 (![1] : Fin 1 → Fin S1x64.rank)
  bcast_S1x64_S640000x64_0_1 : S1x64.BroadcastsInDim S640000x64 (![0, 1] : Fin 2 → Fin S640000x64.rank)
  bcast_S_S640000x64 : S_.BroadcastsInDim S640000x64 (![] : Fin 0 → Fin S640000x64.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  reducesTo_S640000x128_S640000_d1 : S640000x128.ReducesTo [1] S640000
  bcast_S_S640000x1 : S_.BroadcastsInDim S640000x1 (![] : Fin 0 → Fin S640000x1.rank)
  bcast_S640000x1_S640000x128_0_1 : S640000x1.BroadcastsInDim S640000x128 (![0, 1] : Fin 2 → Fin S640000x128.rank)
  gather_S100000x128_S640000x1_S640000x128_1_0_n_n_0_1_1128_wf : GatherDims.WF S100000x128 S640000x1 S640000x128 [1] [0] [] [0] [] 1 ![1, 128]
  dot_S640000x384_S384x64_S640000x64_1_0_0_1_n_n_wf : DotDims.WF S640000x384 S384x64 S640000x64 [1] [0] [0] [1] [] []
  dot_S640000x64_S64x128_S640000x128_1_0_0_1_n_n_wf : DotDims.WF S640000x64 S64x128 S640000x128 [1] [0] [0] [1] [] []
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x256_S256x64_S100000x64_1_0_0_1_n_n_wf : DotDims.WF S100000x256 S256x64 S100000x64 [1] [0] [0] [1] [] []
  dot_S100000x64_S64x128_S100000x128_1_0_0_1_n_n_wf : DotDims.WF S100000x64 S64x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S640000x384_S384x64_S640000x64_1_0_0_1_n_n : DotDims S640000x384 S384x64 S640000x64 where
  lhsContracting := [1]
  rhsContracting := [0]
  lhsNonContracting := [0]
  rhsNonContracting := [1]
  lhsBatch := []
  rhsBatch := []
  wf := dot_S640000x384_S384x64_S640000x64_1_0_0_1_n_n_wf
def dot_S640000x64_S64x128_S640000x128_1_0_0_1_n_n : DotDims S640000x64 S64x128 S640000x128 where
  lhsContracting := [1]
  rhsContracting := [0]
  lhsNonContracting := [0]
  rhsNonContracting := [1]
  lhsBatch := []
  rhsBatch := []
  wf := dot_S640000x64_S64x128_S640000x128_1_0_0_1_n_n_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf

class Facts : Prop extends Facts₀ where

variable [Facts]
-- ==== Proof.RowSpec.lean ====
/-
  The mathematics both programs compute, one ROW at a time, on the extended reals.

  A residual two-layer perceptron on a row: the row's inputs laid side by side (`cat`), a hidden layer
  `relu (cat · W₁ + b₁)` of 64 units, an output layer `hidden · W₂ + b₂` of 128 units, added to the residual row.
  Then layer normalisation of the 128 entries of a row: subtract the mean, divide by the square root of the
  variance plus ε (as the product with its reciprocal square root), scale by `g` and shift by `b`.
  Every output entry of either program is one of these two functions of rows of its inputs; the order of the
  operations is exactly the one both programs use, so no law of arithmetic is needed to compare them.
-/
import Idealize.ShloMosaic.PureOps.Ideal
import Idealize.ShloMosaic.Lib.ValueIdx

noncomputable section

namespace Cert.RowSpec

open Idealize.ShloMosaic

/-- Three rows of 128 entries laid side by side: entries 0–127 from `a`, 128–255 from `b`, 256–383 from `c`. -/
def cat3 (a b c : Fin 128 → EReal) (l : Fin 384) : EReal :=
  if h : l.val < 128 then a ⟨l.val, h⟩
  else if h2 : l.val < 256 then b ⟨l.val - 128, by omega⟩
  else c ⟨l.val - 256, by omega⟩

/-- Two rows of 128 entries laid side by side. -/
def cat2 (a b : Fin 128 → EReal) (l : Fin 256) : EReal :=
  if h : l.val < 128 then a ⟨l.val, h⟩ else b ⟨l.val - 128, by omega⟩

/-- Hidden unit `k`: `max (∑ₗ cat l · w l k + b k) 0`. -/
def hidden {L : Nat} (cat : Fin L → EReal) (w : Fin L → Fin 64 → EReal) (b : Fin 64 → EReal) (k : Fin 64) : EReal :=
  max ((∑ l : Fin L, cat l * w l k) + b k) (Ideal.ofBits .f32 0x00000000#32)

/-- Output entry `j` of the residual perceptron: `res j + (∑ₖ hidden k · w₂ k j + b₂ j)`. -/
def mlpRow {L : Nat} (res : Fin 128 → EReal) (cat : Fin L → EReal) (w1 : Fin L → Fin 64 → EReal) (b1 : Fin 64 → EReal)
    (w2 : Fin 64 → Fin 128 → EReal) (b2 : Fin 128 → EReal) (j : Fin 128) : EReal :=
  res j + ((∑ k : Fin 64, hidden cat w1 b1 k * w2 k j) + b2 j)

/-- The mean of a row of 128 entries: their sum divided by 128 (the f32 word of 128.0). -/
def mean128 (h : Fin 128 → EReal) : EReal :=
  Ideal.div (∑ j : Fin 128, h j) (Ideal.ofBits .f32 0x43000000#32)

/-- A row minus its mean. -/
def centred (h : Fin 128 → EReal) (j : Fin 128) : EReal := h j - mean128 h

/-- The variance of a row: the mean of the squares of the centred row. -/
def var128 (h : Fin 128 → EReal) : EReal := mean128 fun j => centred h j * centred h j

/-- Layer normalisation of a row, entry `j`: `((h j − μ) · rsqrt (σ² + ε)) · g j + b j`, ε the f32 word of 1e-5. -/
def lnRow (h g b : Fin 128 → EReal) (j : Fin 128) : EReal :=
  centred h j * Ideal.rsqrt (var128 h + Ideal.ofBits .f32 0x3727C5AC#32) * g j + b j

/-! ## Arrays as functions of an index, and their rows -/

/-- A two-dimensional array of extended reals. -/
abbrev A2 (R C : Nat) := (⟨2, ![R, C]⟩ : Shape).Idx → EReal
/-- A one-dimensional array of extended reals. -/
abbrev A1 (C : Nat) := (⟨1, ![C]⟩ : Shape).Idx → EReal

/-- Row `r` of a two-dimensional array. -/
def row {R C : Nat} (x : A2 R C) (r : Fin R) : Fin C → EReal := fun j => x (ValueIdx.ix2 r j)

/-- A one-dimensional array laid out as the single row of a `[1, C]` array. -/
def rowOf {C : Nat} (x : A1 C) : A2 1 C := fun i => x (ValueIdx.ix1 (i 1))

/-- The edge update on whole arrays: row `e` of the result is the residual perceptron of row `e` of the two
    gathered node arrays and of the edge array, added to the edge row. Biases come as `[1, C]` arrays. -/
def edgeArr (xr xc ea : A2 640000 128) (w1 : A2 384 64) (b1 : A2 1 64) (w2 : A2 64 128) (b2 : A2 1 128) : A2 640000 128 :=
  fun i => mlpRow (row ea (i 0)) (cat3 (row xr (i 0)) (row xc (i 0)) (row ea (i 0))) (row w1) (row b1 0) (row w2) (row b2 0) (i 1)

/-- The node update on whole arrays: row `n` of the result is the residual perceptron of row `n` of the node
    array and of the aggregated edge array, added to the node row. -/
def nodeArr (x agg : A2 100000 128) (w1 : A2 256 64) (b1 : A2 1 64) (w2 : A2 64 128) (b2 : A2 1 128) : A2 100000 128 :=
  fun i => mlpRow (row x (i 0)) (cat2 (row x (i 0)) (row agg (i 0))) (row w1) (row b1 0) (row w2) (row b2 0) (i 1)

/-- Layer normalisation of every row of an array of 128 columns. -/
def lnArr {R : Nat} (h : A2 R 128) (g b : A2 1 128) : A2 R 128 :=
  fun i => lnRow (row h (i 0)) (row g 0) (row b 0) (i 1)

end Cert.RowSpec

end
-- ==== Proof.IndexRange.lean ====
/-
  The index range both programs' gathers need: every entry of the edge-index array is a valid row of the node
  array, `0 ≤ idx < 100000` as signed 32-bit words.
-/
import Idealize.ShloMosaic.PureOps.Ideal
import Idealize.ShloMosaic.Lib.ValueIdx

namespace Cert.RowSpec

open Idealize.ShloMosaic

/-- Every entry of the `[2, 640000]` index array lies in `[0, 100000)`, read as signed words. -/
def InRange (x1 : IVec (⟨2, ![2, 640000]⟩ : Shape) 32) : Prop :=
  ∀ i, IntOp.cmpi .sge (x1 i) 0#32 = 1#1 ∧ IntOp.cmpi .slt (x1 i) 100000#32 = 1#1

end Cert.RowSpec
-- ==== Proof.EdgeRows.lean ====
/-
  The edge kernel's body at one entry of a block: the value stored at row `p`, column `q` of each output block is
  the row function of row `p` of the three input blocks and of the weight blocks.
-/
import proofs.«414419_j60069412602312_1_alg».proof.Proof.Gen.KernelIdeal.Frame
import proofs.«414419_j60069412602312_1_alg».proof.Proof.RowSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.EdgeRows

open Cert.KernelIdeal Cert.KernelIdeal.Gen Cert.RowSpec ValueIdx

/-- Three blocks laid side by side along the columns, read at row p, column l: the side-by-side rows. -/
private theorem cat_apply (x0 x1 x2 : Vec Ideal S2000x128 .f32) (p : Fin 2000) (l : Fin 384) :
    concatenate S2000x384 1 [⟨S2000x128, x0⟩, ⟨S2000x128, x1⟩, ⟨S2000x128, x2⟩]
        concatenates_S2000x128_S2000x128_S2000x128_S2000x384_d1 (ix2 p l)
      = cat3 (row x0 p) (row x1 p) (row x2 p) l := by
  unfold cat3
  by_cases h1 : l.val < 128
  · rw [dif_pos h1]
    refine concatenate_apply_piece (1 : Fin 2) [⟨S2000x128, x0⟩, ⟨S2000x128, x1⟩, ⟨S2000x128, x2⟩] _ (ix2 p l) 0 (by simp) S2000x128 x0 rfl rfl 0 rfl
      (ix2 p ⟨l.val, h1⟩) (fun b hb => ?_) ?_
    · match b with
      | ⟨0, _⟩ => rfl
      | ⟨1, _⟩ => exact absurd rfl hb
    · show 0 + l.val = l.val
      omega
  · rw [dif_neg h1]
    by_cases h2 : l.val < 256
    · rw [dif_pos h2]
      refine concatenate_apply_piece (1 : Fin 2) [⟨S2000x128, x0⟩, ⟨S2000x128, x1⟩, ⟨S2000x128, x2⟩] _ (ix2 p l) 1 (by simp) S2000x128 x1 rfl rfl 128 rfl
        (ix2 p ⟨l.val - 128, by omega⟩) (fun b hb => ?_) ?_
      · match b with
        | ⟨0, _⟩ => rfl
        | ⟨1, _⟩ => exact absurd rfl hb
      · show 128 + (l.val - 128) = l.val
        omega
    · rw [dif_neg h2]
      refine concatenate_apply_piece (1 : Fin 2) [⟨S2000x128, x0⟩, ⟨S2000x128, x1⟩, ⟨S2000x128, x2⟩] _ (ix2 p l) 2 (by simp) S2000x128 x2 rfl rfl 256 rfl
        (ix2 p ⟨l.val - 256, by omega⟩) (fun b hb => ?_) ?_
      · match b with
        | ⟨0, _⟩ => rfl
        | ⟨1, _⟩ => exact absurd rfl hb
      · show 256 + (l.val - 256) = l.val
        have := l.isLt
        omega

private theorem lhsA_0 (i : S2000x64.Idx) (q : dot_S2000x384_S384x64_S2000x64_1_0_0_1_n_n.contr.Idx) :
    (dot_S2000x384_S384x64_S2000x64_1_0_0_1_n_n.lhsIdx i q 0).val = (i 0).val := by
  unfold DotDims.lhsIdx
  rw [dif_neg (show ¬(0 : Fin S2000x384.rank) ∈ dot_S2000x384_S384x64_S2000x64_1_0_0_1_n_n.lhsBatch by decide), dif_pos (show (0 : Fin S2000x384.rank) ∈ dot_S2000x384_S384x64_S2000x64_1_0_0_1_n_n.lhsNonContracting by decide)]
  rfl
private theorem lhsA_1 (i : S2000x64.Idx) (q : dot_S2000x384_S384x64_S2000x64_1_0_0_1_n_n.contr.Idx) :
    (dot_S2000x384_S384x64_S2000x64_1_0_0_1_n_n.lhsIdx i q 1).val = (q ⟨0, by decide⟩).val :=
  dot_S2000x384_S384x64_S2000x64_1_0_0_1_n_n.lhsIdx_val_of_single rfl i q
private theorem rhsA_0 (i : S2000x64.Idx) (q : dot_S2000x384_S384x64_S2000x64_1_0_0_1_n_n.contr.Idx) :
    (dot_S2000x384_S384x64_S2000x64_1_0_0_1_n_n.rhsIdx i q 0).val = (q ⟨0, by decide⟩).val :=
  dot_S2000x384_S384x64_S2000x64_1_0_0_1_n_n.rhsIdx_val_of_single rfl i q
private theorem rhsA_1 (i : S2000x64.Idx) (q : dot_S2000x384_S384x64_S2000x64_1_0_0_1_n_n.contr.Idx) :
    (dot_S2000x384_S384x64_S2000x64_1_0_0_1_n_n.rhsIdx i q 1).val = (i 1).val := by
  unfold DotDims.rhsIdx
  rw [dif_neg (show ¬(1 : Fin S384x64.rank) ∈ dot_S2000x384_S384x64_S2000x64_1_0_0_1_n_n.rhsBatch by decide), dif_pos (show (1 : Fin S384x64.rank) ∈ dot_S2000x384_S384x64_S2000x64_1_0_0_1_n_n.rhsNonContracting by decide)]
  rfl

/-- The product into the zero block, read at row p, column k: the sum over the contracted coordinate. -/
private theorem mmA_apply (a : FVec Ideal S2000x384 .bf16) (w : FVec Ideal S384x64 .bf16) (p : Fin 2000) (k : Fin 64) :
    matmul dot_S2000x384_S384x64_S2000x64_1_0_0_1_n_n none a w (constant (F := Ideal) S2000x64 .f32 0x00000000#32) (ix2 p k)
      = ∑ l : Fin 384, a (ix2 p l) * w (ix2 l k) := by
  refine (Ideal.matmul_constant_zero_apply dot_S2000x384_S384x64_S2000x64_1_0_0_1_n_n none a w (ix2 p k)).trans ?_
  rw [← Equiv.sum_comp (ValueIdx.contrEquiv1 dot_S2000x384_S384x64_S2000x64_1_0_0_1_n_n 384 rfl rfl).symm]
  refine Finset.sum_congr rfl fun l _ => ?_
  have hk := ValueIdx.contrEquiv1_symm_val dot_S2000x384_S384x64_S2000x64_1_0_0_1_n_n 384 rfl rfl l
  have el : dot_S2000x384_S384x64_S2000x64_1_0_0_1_n_n.lhsIdx (ix2 p k) ((ValueIdx.contrEquiv1 dot_S2000x384_S384x64_S2000x64_1_0_0_1_n_n 384 rfl rfl).symm l) = ix2 p l := funext fun a => Fin.ext (by
    match a with
    | ⟨0, _⟩ => exact lhsA_0 _ _
    | ⟨1, _⟩ => exact (lhsA_1 _ _).trans hk)
  have er : dot_S2000x384_S384x64_S2000x64_1_0_0_1_n_n.rhsIdx (ix2 p k) ((ValueIdx.contrEquiv1 dot_S2000x384_S384x64_S2000x64_1_0_0_1_n_n 384 rfl rfl).symm l) = ix2 l k := funext fun a => Fin.ext (by
    match a with
    | ⟨0, _⟩ => exact (rhsA_0 _ _).trans hk
    | ⟨1, _⟩ => exact rhsA_1 _ _)
  rw [el, er]

private theorem lhsB_0 (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
private theorem lhsB_1 (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
private theorem rhsB_0 (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
private theorem rhsB_1 (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- The product into the zero block, read at row p, column k: the sum over the contracted coordinate. -/
private theorem mmB_apply (a : FVec Ideal S2000x64 .bf16) (w : FVec Ideal S64x128 .bf16) (p : Fin 2000) (k : Fin 128) :
    matmul dot_S2000x64_S64x128_S2000x128_1_0_0_1_n_n none a w (constant (F := Ideal) S2000x128 .f32 0x00000000#32) (ix2 p k)
      = ∑ l : Fin 64, a (ix2 p l) * w (ix2 l k) := by
  refine (Ideal.matmul_constant_zero_apply dot_S2000x64_S64x128_S2000x128_1_0_0_1_n_n none a w (ix2 p k)).trans ?_
  rw [← Equiv.sum_comp (ValueIdx.contrEquiv1 dot_S2000x64_S64x128_S2000x128_1_0_0_1_n_n 64 rfl rfl).symm]
  refine Finset.sum_congr rfl fun l _ => ?_
  have hk := ValueIdx.contrEquiv1_symm_val dot_S2000x64_S64x128_S2000x128_1_0_0_1_n_n 64 rfl rfl l
  have el : dot_S2000x64_S64x128_S2000x128_1_0_0_1_n_n.lhsIdx (ix2 p k) ((ValueIdx.contrEquiv1 dot_S2000x64_S64x128_S2000x128_1_0_0_1_n_n 64 rfl rfl).symm l) = ix2 p l := funext fun a => Fin.ext (by
    match a with
    | ⟨0, _⟩ => exact lhsB_0 _ _
    | ⟨1, _⟩ => exact (lhsB_1 _ _).trans hk)
  have er : dot_S2000x64_S64x128_S2000x128_1_0_0_1_n_n.rhsIdx (ix2 p k) ((ValueIdx.contrEquiv1 dot_S2000x64_S64x128_S2000x128_1_0_0_1_n_n 64 rfl rfl).symm l) = ix2 l k := funext fun a => Fin.ext (by
    match a with
    | ⟨0, _⟩ => exact (rhsB_0 _ _).trans hk
    | ⟨1, _⟩ => exact rhsB_1 _ _)
  rw [el, er]

/-- The lane sum of a block, read at row p: the sum of the row's 128 entries. -/
private theorem rowsum_apply (src : FVec Ideal S2000x128 .f32) (p : Fin 2000) :
    multiReduction (F := Ideal) .add [1] S2000 src 0x00000000#32 reduces_S2000x128_S2000 (.inl rfl) rfl (ix1 p)
      = ∑ q : Fin 128, src (ix2 p q) := by
  refine (Ideal.multiReduction_add_single src 0x00000000#32 reduces_S2000x128_S2000 (.inl rfl) rfl (ix1 p)).trans ?_
  show ∑ q : Fin 128, src (reduces_S2000x128_S2000.lift (ix1 p) q) = _
  refine Finset.sum_congr rfl fun q _ => congrArg src (funext fun a => Fin.ext ?_)
  match a with
  | ⟨0, _⟩ => rfl
  | ⟨1, _⟩ => rfl

/-- A vector of 2000 entries viewed as a column: entry (p, 0) is entry p. -/
private theorem col_apply (v : FVec Ideal S2000 .f32) (p : Fin 2000) (u : Fin 1) :
    shapeCast S2000x1 v shapeCasts_S2000_S2000x1 (ix2 p u) = v (ix1 p) :=
  shapeCast_apply v shapeCasts_S2000_S2000x1 (ix2 p u) (ix1 p) (by
    have hu : u.val = 0 := by omega
    rw [Shape.rowMajor_val_two, Shape.rowMajor_val_one]
    show p.val = p.val * 1 + u.val
    omega)

/-- A column broadcast over 128 lanes: entry (p, q) is the column's entry (p, 0). -/
private theorem bcol_apply (v : FVec Ideal S2000x1 .f32) (p : Fin 2000) (q : Fin 128) :
    broadcastTo S2000x128 v broadcasts_S2000x1_S2000x128 (ix2 p q) = v (ix2 p (0 : Fin 1)) := by
  refine broadcastTo_apply v broadcasts_S2000x1_S2000x128 (ix2 p q) (ix2 p (0 : Fin 1)) fun ax => ?_
  match ax with
  | ⟨0, _⟩ =>
    show p.val = if (2000 : Nat) = 1 then 0 else p.val
    rw [if_neg (by decide)]
  | ⟨1, _⟩ => rfl

/-- The hidden layer of the block: the larger of zero and the side-by-side blocks times the first weights plus the first bias. -/
private def hid (x0 x1 x2 : Vec Ideal S2000x128 .f32) (x3 : Vec Ideal S384x64 .f32) (x4 : Vec Ideal S1x64 .f32) :
    FVec Ideal S2000x64 .f32 :=
  maximumf
    (addf
      (matmul dot_S2000x384_S384x64_S2000x64_1_0_0_1_n_n none
        (truncf .bf16 (concatenate S2000x384 1 [⟨S2000x128, shapeCast S2000x128 x0 shapeCasts_S2000x128_S2000x128⟩,
            ⟨S2000x128, shapeCast S2000x128 x1 shapeCasts_S2000x128_S2000x128⟩, ⟨S2000x128, x2⟩]
          concatenates_S2000x128_S2000x128_S2000x128_S2000x384_d1) bitsLt_bf16_f32)
        (truncf .bf16 x3 bitsLt_bf16_f32) (constant (F := Ideal) S2000x64 .f32 0x00000000#32))
      (broadcastTo S2000x64 (shapeCast S1x64 x4 shapeCasts_S1x64_S1x64) broadcasts_S1x64_S2000x64))
    (broadcast S2000x64 (Scalar.ofBits (F := Ideal) .f32 0x00000000#32))

/-- The residual perceptron payload is the residual block plus the output layer of the hidden layer. -/
private theorem pay2_eq (x0 x1 x2 : Vec Ideal S2000x128 .f32) (x3 : Vec Ideal S384x64 .f32) (x4 : Vec Ideal S1x64 .f32)
    (x5 : Vec Ideal S64x128 .f32) (x6 : Vec Ideal S1x128 .f32) :
    k0_pay2 (F := Ideal) x0 x1 x2 x3 x4 x5 x6
      = addf x2 (addf
          (matmul dot_S2000x64_S64x128_S2000x128_1_0_0_1_n_n none (truncf .bf16 (hid x0 x1 x2 x3 x4) bitsLt_bf16_f32)
            (truncf .bf16 x5 bitsLt_bf16_f32) (constant (F := Ideal) S2000x128 .f32 0x00000000#32))
          (broadcastTo S2000x128 (shapeCast S1x128 x6 shapeCasts_S1x128_S1x128) broadcasts_S1x128_S2000x128)) := rfl

/-- Hidden unit k of row p. -/
private theorem hid_apply (x0 x1 x2 : Vec Ideal S2000x128 .f32) (x3 : Vec Ideal S384x64 .f32) (x4 : Vec Ideal S1x64 .f32)
    (p : Fin 2000) (k : Fin 64) :
    hid x0 x1 x2 x3 x4 (ix2 p k)
      = hidden (cat3 (row x0 p) (row x1 p) (row x2 p)) (row x3) (row x4 0) k := by
  unfold hid Cert.RowSpec.hidden
  rw [shapeCast_self, shapeCast_self, shapeCast_self]
  refine congrArg (fun t => max t (Ideal.ofBits .f32 0x00000000#32)) ?_
  refine congrArg₂ (· + ·) ?_ ?_
  · refine (mmA_apply _ _ p k).trans ?_
    refine Finset.sum_congr rfl fun l _ => ?_
    exact congrArg (· * x3 (ix2 l k)) (cat_apply x0 x1 x2 p l)
  · exact broadcastTo_1b_ab_apply x4 broadcasts_S1x64_S2000x64 p k

/-- The residual perceptron payload at entry `(p, q)` of the block. -/
theorem pay2_apply (x0 x1 x2 : Vec Ideal S2000x128 .f32) (x3 : Vec Ideal S384x64 .f32) (x4 : Vec Ideal S1x64 .f32)
    (x5 : Vec Ideal S64x128 .f32) (x6 : Vec Ideal S1x128 .f32) (p : Fin 2000) (q : Fin 128) :
    k0_pay2 (F := Ideal) x0 x1 x2 x3 x4 x5 x6 (ix2 p q)
      = mlpRow (row x2 p) (cat3 (row x0 p) (row x1 p) (row x2 p)) (row x3) (row x4 0) (row x5) (row x6 0) q := by
  refine (congrFun (pay2_eq x0 x1 x2 x3 x4 x5 x6) (ix2 p q)).trans ?_
  unfold mlpRow
  rw [shapeCast_self]
  refine congrArg (x2 (ix2 p q) + ·) ?_
  refine congrArg₂ (· + ·) ?_ ?_
  · refine (mmB_apply _ _ p q).trans ?_
    refine Finset.sum_congr rfl fun k _ => ?_
    exact congrArg (· * x5 (ix2 k q)) (hid_apply x0 x1 x2 x3 x4 p k)
  · exact broadcastTo_1b_ab_apply x6 broadcasts_S1x128_S2000x128 p q

/-- The column of row means of a block. -/
private def meanCol (h : FVec Ideal S2000x128 .f32) : FVec Ideal S2000x1 .f32 :=
  divf (shapeCast S2000x1 (multiReduction (F := Ideal) .add [1] S2000 h 0x00000000#32 reduces_S2000x128_S2000 (.inl rfl) rfl)
      shapeCasts_S2000_S2000x1)
    (broadcast S2000x1 (Scalar.ofBits (F := Ideal) .f32 0x43000000#32))

/-- A block minus the column of its row means. -/
private def cenBlk (h : FVec Ideal S2000x128 .f32) : FVec Ideal S2000x128 .f32 :=
  subf h (broadcastTo S2000x128 (meanCol h) broadcasts_S2000x1_S2000x128)

/-- The column of row variances of a block. -/
private def varCol (h : FVec Ideal S2000x128 .f32) : FVec Ideal S2000x1 .f32 :=
  divf (shapeCast S2000x1 (multiReduction (F := Ideal) .add [1] S2000 (mulf (cenBlk h) (cenBlk h)) 0x00000000#32
        reduces_S2000x128_S2000 (.inl rfl) rfl) shapeCasts_S2000_S2000x1)
    (broadcast S2000x1 (Scalar.ofBits (F := Ideal) .f32 0x43000000#32))

private theorem pay3_eq (x0 x1 x2 : Vec Ideal S2000x128 .f32) (x3 : Vec Ideal S384x64 .f32) (x4 : Vec Ideal S1x64 .f32)
    (x5 : Vec Ideal S64x128 .f32) (x6 : Vec Ideal S1x128 .f32) :
    k0_pay3 (F := Ideal) x0 x1 x2 x3 x4 x5 x6 = meanCol (k0_pay2 (F := Ideal) x0 x1 x2 x3 x4 x5 x6) := rfl

private theorem pay5_eq (x0 x1 x2 : Vec Ideal S2000x128 .f32) (x3 : Vec Ideal S384x64 .f32) (x4 : Vec Ideal S1x64 .f32)
    (x5 : Vec Ideal S64x128 .f32) (x6 : Vec Ideal S1x128 .f32) :
    k0_pay5 (F := Ideal) x0 x1 x2 x3 x4 x5 x6 = cenBlk (k0_pay2 (F := Ideal) x0 x1 x2 x3 x4 x5 x6) := rfl

private theorem pay4_eq (x0 x1 x2 : Vec Ideal S2000x128 .f32) (x3 : Vec Ideal S384x64 .f32) (x4 : Vec Ideal S1x64 .f32)
    (x5 : Vec Ideal S64x128 .f32) (x6 : Vec Ideal S1x128 .f32) :
    k0_pay4 (F := Ideal) x0 x1 x2 x3 x4 x5 x6 = varCol (k0_pay2 (F := Ideal) x0 x1 x2 x3 x4 x5 x6) := rfl

/-- The mean column at row p is the mean of row p. -/
private theorem meanCol_apply (h : FVec Ideal S2000x128 .f32) (p : Fin 2000) (u : Fin 1) :
    meanCol h (ix2 p u) = mean128 (row h p) := by
  unfold meanCol mean128
  refine congrArg (fun t => Ideal.div t (Ideal.ofBits .f32 0x43000000#32)) ?_
  refine (col_apply _ p u).trans ?_
  exact rowsum_apply h p

/-- The centred block at (p, q) is the centred row p at q. -/
private theorem cenBlk_apply (h : FVec Ideal S2000x128 .f32) (p : Fin 2000) (q : Fin 128) :
    cenBlk h (ix2 p q) = centred (row h p) q := by
  unfold cenBlk centred
  refine congrArg (h (ix2 p q) - ·) ?_
  exact (bcol_apply (meanCol h) p q).trans (meanCol_apply h p 0)

/-- The variance column at row p is the variance of row p. -/
private theorem varCol_apply (h : FVec Ideal S2000x128 .f32) (p : Fin 2000) (u : Fin 1) :
    varCol h (ix2 p u) = var128 (row h p) := by
  unfold varCol var128 mean128
  refine congrArg (fun t => Ideal.div t (Ideal.ofBits .f32 0x43000000#32)) ?_
  refine (col_apply _ p u).trans ?_
  refine (rowsum_apply _ p).trans ?_
  refine Finset.sum_congr rfl fun q _ => ?_
  exact congrArg₂ (· * ·) (cenBlk_apply h p q) (cenBlk_apply h p q)

/-- The normalising payload at (p, q), over any variance column and centred block. -/
private theorem pay1_core (v35 : FVec Ideal S2000x1 .f32) (v37 : FVec Ideal S2000x128 .f32) (x7 x8 : Vec Ideal S1x128 .f32)
    (p : Fin 2000) (q : Fin 128) :
    k0_pay1 (F := Ideal) v35 v37 x7 x8 (ix2 p q)
      = v37 (ix2 p q) * Ideal.rsqrt (v35 (ix2 p (0 : Fin 1)) + Ideal.ofBits .f32 0x3727C5AC#32) * x7 (ix2 (0 : Fin 1) q)
          + x8 (ix2 (0 : Fin 1) q) := by
  unfold k0_pay1
  rw [shapeCast_self, shapeCast_self]
  refine congrArg₂ (· + ·) (congrArg₂ (· * ·) (congrArg (v37 (ix2 p q) * ·) ?_) ?_) ?_
  · exact bcol_apply _ p q
  · exact broadcastTo_1b_ab_apply x7 broadcasts_S1x128_S2000x128 p q
  · exact broadcastTo_1b_ab_apply x8 broadcasts_S1x128_S2000x128 p q

/-- The normalised payload at entry `(p, q)`: layer normalisation of row `p` of the residual perceptron payload. -/
theorem pay1_apply (x0 x1 x2 : Vec Ideal S2000x128 .f32) (x3 : Vec Ideal S384x64 .f32) (x4 : Vec Ideal S1x64 .f32)
    (x5 : Vec Ideal S64x128 .f32) (x6 x7 x8 : Vec Ideal S1x128 .f32) (p : Fin 2000) (q : Fin 128) :
    k0_pay1 (F := Ideal) (k0_pay4 x0 x1 x2 x3 x4 x5 x6) (k0_pay5 x0 x1 x2 x3 x4 x5 x6) x7 x8 (ix2 p q)
      = lnRow (row (k0_pay2 (F := Ideal) x0 x1 x2 x3 x4 x5 x6) p) (row x7 0) (row x8 0) q := by
  refine (pay1_core _ _ x7 x8 p q).trans ?_
  rw [pay4_eq, pay5_eq]
  generalize k0_pay2 (F := Ideal) x0 x1 x2 x3 x4 x5 x6 = h
  unfold lnRow
  rw [cenBlk_apply h p q, varCol_apply h p 0]
  rfl

end Cert.KernelIdeal.EdgeRows

end
-- ==== Proof.EdgeBlocks.lean ====
/-
  The edge region's two output arrays after its run, as whole-array functions of the arrays the region finds:
  every grid point writes back block `t` (rows 2000·t … 2000·t + 1999) of one function of the input arrays, the blocks
  tile the 640000 rows, so each output array ends holding that function.
-/
import proofs.«414419_j60069412602312_1_alg».proof.Proof.Gen.KernelIdeal.Frame
import proofs.«414419_j60069412602312_1_alg».proof.Proof.RowSpec
import proofs.«414419_j60069412602312_1_alg».proof.Proof.EdgeRows
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.EdgeBlocks

open Cert.KernelIdeal Cert.KernelIdeal.Gen Cert.RowSpec

variable (V : (c : Dev nD) → (b : Ref sig .tc) → Buf (Elt Ideal) ((c : Thread nD τ).loc b))

open ValueIdx

/-! ## The windows' index maps over the grid -/

theorem hz : (![0, 0] : Fin 2 → Nat) = fun _ => 0 := funext fun a => by fin_cases a <;> rfl

/-- Over the 320 grid points: the five row-block windows (three inputs, two outputs) sit at block `(t, 0)`, the six
    weight windows at block `(0, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- Row `p` of block `t` is row `2000·t + p` of the array. -/
def rowAt (t : Fin cfg0.N) (p : Fin 2000) : Fin 640000 :=
  ⟨2000 * t.val + p.val, by have hN : cfg0.N = 320 := N_0; have := t.isLt; have := p.isLt; omega⟩

theorem rowAt_val (t : Fin cfg0.N) (p : Fin 2000) : (rowAt t p).val = 2000 * t.val + p.val := rfl

/-! ## The blocks and the arrays, each at its literal type -/

abbrev xrBlk (c : Dev nD) (t : Fin cfg0.N) : Vec Ideal S2000x128 .f32 := iblk0 V c 0 t
abbrev xcBlk (c : Dev nD) (t : Fin cfg0.N) : Vec Ideal S2000x128 .f32 := iblk0 V c 1 t
abbrev eaBlk (c : Dev nD) (t : Fin cfg0.N) : Vec Ideal S2000x128 .f32 := iblk0 V c 2 t
abbrev w1Blk (c : Dev nD) (t : Fin cfg0.N) : Vec Ideal S384x64 .f32 := iblk0 V c 3 t
abbrev b1Blk (c : Dev nD) (t : Fin cfg0.N) : Vec Ideal S1x64 .f32 := iblk0 V c 4 t
abbrev w2Blk (c : Dev nD) (t : Fin cfg0.N) : Vec Ideal S64x128 .f32 := iblk0 V c 5 t
abbrev b2Blk (c : Dev nD) (t : Fin cfg0.N) : Vec Ideal S1x128 .f32 := iblk0 V c 6 t
abbrev gBlk (c : Dev nD) (t : Fin cfg0.N) : Vec Ideal S1x128 .f32 := iblk0 V c 7 t
abbrev bBlk (c : Dev nD) (t : Fin cfg0.N) : Vec Ideal S1x128 .f32 := iblk0 V c 8 t

abbrev xrArr (c : Dev nD) : A2 640000 128 := V c main_v4
abbrev xcArr (c : Dev nD) : A2 640000 128 := V c main_v5
abbrev eaArr (c : Dev nD) : A2 640000 128 := V c main_arg2
abbrev w1Arr (c : Dev nD) : A2 384 64 := V c main_arg4
abbrev b1Arr (c : Dev nD) : A2 1 64 := V c main_v6
abbrev w2Arr (c : Dev nD) : A2 64 128 := V c main_arg6
abbrev b2Arr (c : Dev nD) : A2 1 128 := V c main_v7
abbrev gArr (c : Dev nD) : A2 1 128 := V c main_v8
abbrev bArr (c : Dev nD) : A2 1 128 := V c main_v9

/-- The function the first output ends holding. -/
abbrev edgeOf (c : Dev nD) : A2 640000 128 :=
  edgeArr (xrArr V c) (xcArr V c) (eaArr V c) (w1Arr V c) (b1Arr V c) (w2Arr V c) (b2Arr V c)

/-- The function the second output ends holding. -/
abbrev lnOf (c : Dev nD) : A2 640000 128 := lnArr (edgeOf V c) (gArr V c) (bArr V c)

/-! ## Each input block read off its array -/

/-- An entry of window 0's block at point `t` is the array's entry 2000·t rows further down. -/
theorem xrBlk_apply (c : Dev nD) (t : Fin cfg0.N) (p : Fin 2000) (q : Fin 128) :
    xrBlk V c t (ix2 p q) = xrArr V c (ix2 (rowAt t p) q) := by
  obtain ⟨⟨a0, a1⟩, ⟨b0, b1⟩, ⟨c0, c1⟩, -⟩ := idx_facts t
  show V c main_v4 (((cfg0.win 0).blk t).view.emb (ix2 p q)) = V c main_v4 (ix2 (rowAt t p) q)
  refine congrArg _ ?_
  funext a; apply Fin.ext
  match a with
  | ⟨0, _⟩ => show win0_0.index t (0 : Fin 2) * 2000 + 1 * p.val = 2000 * t.val + p.val; omega
  | ⟨1, _⟩ => show win0_0.index t (1 : Fin 2) * 128 + 1 * q.val = q.val; omega

theorem xrBlk_row (c : Dev nD) (t : Fin cfg0.N) (p : Fin 2000) :
    row (xrBlk V c t) p = row (xrArr V c) (rowAt t p) :=
  funext fun q => xrBlk_apply V c t p q

/-- An entry of window 1's block at point `t` is the array's entry 2000·t rows further down. -/
theorem xcBlk_apply (c : Dev nD) (t : Fin cfg0.N) (p : Fin 2000) (q : Fin 128) :
    xcBlk V c t (ix2 p q) = xcArr V c (ix2 (rowAt t p) q) := by
  obtain ⟨⟨a0, a1⟩, ⟨b0, b1⟩, ⟨c0, c1⟩, -⟩ := idx_facts t
  show V c main_v5 (((cfg0.win 1).blk t).view.emb (ix2 p q)) = V c main_v5 (ix2 (rowAt t p) q)
  refine congrArg _ ?_
  funext a; apply Fin.ext
  match a with
  | ⟨0, _⟩ => show win0_1.index t (0 : Fin 2) * 2000 + 1 * p.val = 2000 * t.val + p.val; omega
  | ⟨1, _⟩ => show win0_1.index t (1 : Fin 2) * 128 + 1 * q.val = q.val; omega

theorem xcBlk_row (c : Dev nD) (t : Fin cfg0.N) (p : Fin 2000) :
    row (xcBlk V c t) p = row (xcArr V c) (rowAt t p) :=
  funext fun q => xcBlk_apply V c t p q

/-- An entry of window 2's block at point `t` is the array's entry 2000·t rows further down. -/
theorem eaBlk_apply (c : Dev nD) (t : Fin cfg0.N) (p : Fin 2000) (q : Fin 128) :
    eaBlk V c t (ix2 p q) = eaArr V c (ix2 (rowAt t p) q) := by
  obtain ⟨⟨a0, a1⟩, ⟨b0, b1⟩, ⟨c0, c1⟩, -⟩ := idx_facts t
  show V c main_arg2 (((cfg0.win 2).blk t).view.emb (ix2 p q)) = V c main_arg2 (ix2 (rowAt t p) q)
  refine congrArg _ ?_
  funext a; apply Fin.ext
  match a with
  | ⟨0, _⟩ => show win0_2.index t (0 : Fin 2) * 2000 + 1 * p.val = 2000 * t.val + p.val; omega
  | ⟨1, _⟩ => show win0_2.index t (1 : Fin 2) * 128 + 1 * q.val = q.val; omega

theorem eaBlk_row (c : Dev nD) (t : Fin cfg0.N) (p : Fin 2000) :
    row (eaBlk V c t) p = row (eaArr V c) (rowAt t p) :=
  funext fun q => eaBlk_apply V c t p q

/-- Window 3's block at every point is the whole array. -/
theorem w1Blk_eq (c : Dev nD) (t : Fin cfg0.N) : w1Blk V c t = w1Arr V c := by
  obtain ⟨-, -, -, ⟨e0, e1⟩, -⟩ := idx_facts t
  funext y
  obtain ⟨p, q, rfl⟩ : ∃ (p : Fin 384) (q : Fin 64), y = ix2 p q := ⟨y 0, y 1, eq_ix2 y⟩
  show V c main_arg4 (((cfg0.win 3).blk t).view.emb (ix2 p q)) = V c main_arg4 (ix2 p q)
  refine congrArg _ ?_
  funext a; apply Fin.ext
  match a with
  | ⟨0, _⟩ => show win0_3.index t (0 : Fin 2) * 384 + 1 * p.val = p.val; omega
  | ⟨1, _⟩ => show win0_3.index t (1 : Fin 2) * 64 + 1 * q.val = q.val; omega

/-- Window 4's block at every point is the whole array. -/
theorem b1Blk_eq (c : Dev nD) (t : Fin cfg0.N) : b1Blk V c t = b1Arr V c := by
  obtain ⟨-, -, -, -, ⟨e0, e1⟩, -⟩ := idx_facts t
  funext y
  obtain ⟨p, q, rfl⟩ : ∃ (p : Fin 1) (q : Fin 64), y = ix2 p q := ⟨y 0, y 1, eq_ix2 y⟩
  show V c main_v6 (((cfg0.win 4).blk t).view.emb (ix2 p q)) = V c main_v6 (ix2 p q)
  refine congrArg _ ?_
  funext a; apply Fin.ext
  match a with
  | ⟨0, _⟩ => show win0_4.index t (0 : Fin 2) * 1 + 1 * p.val = p.val; omega
  | ⟨1, _⟩ => show win0_4.index t (1 : Fin 2) * 64 + 1 * q.val = q.val; omega

/-- Window 5's block at every point is the whole array. -/
theorem w2Blk_eq (c : Dev nD) (t : Fin cfg0.N) : w2Blk V c t = w2Arr V c := by
  obtain ⟨-, -, -, -, -, ⟨e0, e1⟩, -⟩ := idx_facts t
  funext y
  obtain ⟨p, q, rfl⟩ : ∃ (p : Fin 64) (q : Fin 128), y = ix2 p q := ⟨y 0, y 1, eq_ix2 y⟩
  show V c main_arg6 (((cfg0.win 5).blk t).view.emb (ix2 p q)) = V c main_arg6 (ix2 p q)
  refine congrArg _ ?_
  funext a; apply Fin.ext
  match a with
  | ⟨0, _⟩ => show win0_5.index t (0 : Fin 2) * 64 + 1 * p.val = p.val; omega
  | ⟨1, _⟩ => show win0_5.index t (1 : Fin 2) * 128 + 1 * q.val = q.val; omega

/-- Window 6's block at every point is the whole array. -/
theorem b2Blk_eq (c : Dev nD) (t : Fin cfg0.N) : b2Blk V c t = b2Arr V c := by
  obtain ⟨-, -, -, -, -, -, ⟨e0, e1⟩, -⟩ := idx_facts t
  funext y
  obtain ⟨p, q, rfl⟩ : ∃ (p : Fin 1) (q : Fin 128), y = ix2 p q := ⟨y 0, y 1, eq_ix2 y⟩
  show V c main_v7 (((cfg0.win 6).blk t).view.emb (ix2 p q)) = V c main_v7 (ix2 p q)
  refine congrArg _ ?_
  funext a; apply Fin.ext
  match a with
  | ⟨0, _⟩ => show win0_6.index t (0 : Fin 2) * 1 + 1 * p.val = p.val; omega
  | ⟨1, _⟩ => show win0_6.index t (1 : Fin 2) * 128 + 1 * q.val = q.val; omega

/-- Window 7's block at every point is the whole array. -/
theorem gBlk_eq (c : Dev nD) (t : Fin cfg0.N) : gBlk V c t = gArr V c := by
  obtain ⟨-, -, -, -, -, -, -, ⟨e0, e1⟩, -⟩ := idx_facts t
  funext y
  obtain ⟨p, q, rfl⟩ : ∃ (p : Fin 1) (q : Fin 128), y = ix2 p q := ⟨y 0, y 1, eq_ix2 y⟩
  show V c main_v8 (((cfg0.win 7).blk t).view.emb (ix2 p q)) = V c main_v8 (ix2 p q)
  refine congrArg _ ?_
  funext a; apply Fin.ext
  match a with
  | ⟨0, _⟩ => show win0_7.index t (0 : Fin 2) * 1 + 1 * p.val = p.val; omega
  | ⟨1, _⟩ => show win0_7.index t (1 : Fin 2) * 128 + 1 * q.val = q.val; omega

/-- Window 8's block at every point is the whole array. -/
theorem bBlk_eq (c : Dev nD) (t : Fin cfg0.N) : bBlk V c t = bArr V c := by
  obtain ⟨-, -, -, -, -, -, -, -, ⟨e0, e1⟩, -⟩ := idx_facts t
  funext y
  obtain ⟨p, q, rfl⟩ : ∃ (p : Fin 1) (q : Fin 128), y = ix2 p q := ⟨y 0, y 1, eq_ix2 y⟩
  show V c main_v9 (((cfg0.win 8).blk t).view.emb (ix2 p q)) = V c main_v9 (ix2 p q)
  refine congrArg _ ?_
  funext a; apply Fin.ext
  match a with
  | ⟨0, _⟩ => show win0_8.index t (0 : Fin 2) * 1 + 1 * p.val = p.val; omega
  | ⟨1, _⟩ => show win0_8.index t (1 : Fin 2) * 128 + 1 * q.val = q.val; omega

/-! ## What a point writes back -/

/-- Where an entry of an output block sits in its array (both outputs move alike). -/
theorem emb9 (t : Fin cfg0.N) (p : Fin 2000) (q : Fin 128) :
    ((cfg0.win 9).blk t).view.emb (ix2 p q) = (ix2 (rowAt t p) q : S640000x128.Idx) := by
  obtain ⟨-, -, -, -, -, -, -, -, -, ⟨e0, e1⟩, -⟩ := idx_facts t
  funext a; apply Fin.ext
  match a with
  | ⟨0, _⟩ => show win0_9.index t (0 : Fin 2) * 2000 + 1 * p.val = 2000 * t.val + p.val; omega
  | ⟨1, _⟩ => show win0_9.index t (1 : Fin 2) * 128 + 1 * q.val = q.val; omega

theorem emb10 (t : Fin cfg0.N) (p : Fin 2000) (q : Fin 128) :
    ((cfg0.win 10).blk t).view.emb (ix2 p q) = (ix2 (rowAt t p) q : S640000x128.Idx) := by
  obtain ⟨-, -, -, -, -, -, -, -, -, -, ⟨e0, e1⟩⟩ := idx_facts t
  funext a; apply Fin.ext
  match a with
  | ⟨0, _⟩ => show win0_10.index t (0 : Fin 2) * 2000 + 1 * p.val = 2000 * t.val + p.val; omega
  | ⟨1, _⟩ => show win0_10.index t (1 : Fin 2) * 128 + 1 * q.val = q.val; omega

/-- The residual perceptron of the blocks at point `t`, entry `(p, q)`, is the whole-array function at row `2000·t + p`. -/
theorem pay2_entry (c : Dev nD) (t : Fin cfg0.N) (p : Fin 2000) (q : Fin 128) :
    k0_pay2 (F := Ideal) (xrBlk V c t) (xcBlk V c t) (eaBlk V c t) (w1Blk V c t) (b1Blk V c t) (w2Blk V c t) (b2Blk V c t) (ix2 p q)
      = edgeOf V c (ix2 (rowAt t p) q) := by
  refine (EdgeRows.pay2_apply (xrBlk V c t) (xcBlk V c t) (eaBlk V c t) (w1Blk V c t) (b1Blk V c t) (w2Blk V c t) (b2Blk V c t) p q).trans ?_
  rw [xrBlk_row V c t p, xcBlk_row V c t p, eaBlk_row V c t p, w1Blk_eq V c t, b1Blk_eq V c t, w2Blk_eq V c t, b2Blk_eq V c t]
  rfl

/-- So row `p` of that payload is row `2000·t + p` of the whole-array function. -/
theorem pay2_row (c : Dev nD) (t : Fin cfg0.N) (p : Fin 2000) :
    row (k0_pay2 (F := Ideal) (xrBlk V c t) (xcBlk V c t) (eaBlk V c t) (w1Blk V c t) (b1Blk V c t) (w2Blk V c t) (b2Blk V c t)) p
      = row (edgeOf V c) (rowAt t p) :=
  funext fun q => pay2_entry V c t p q

/-- The normalised payload of the blocks at point `t`, entry `(p, q)`. -/
theorem pay1_entry (c : Dev nD) (t : Fin cfg0.N) (p : Fin 2000) (q : Fin 128) :
    k0_pay1 (F := Ideal)
        (k0_pay4 (xrBlk V c t) (xcBlk V c t) (eaBlk V c t) (w1Blk V c t) (b1Blk V c t) (w2Blk V c t) (b2Blk V c t))
        (k0_pay5 (xrBlk V c t) (xcBlk V c t) (eaBlk V c t) (w1Blk V c t) (b1Blk V c t) (w2Blk V c t) (b2Blk V c t))
        (gBlk V c t) (bBlk V c t) (ix2 p q)
      = lnOf V c (ix2 (rowAt t p) q) := by
  refine (EdgeRows.pay1_apply (xrBlk V c t) (xcBlk V c t) (eaBlk V c t) (w1Blk V c t) (b1Blk V c t) (w2Blk V c t) (b2Blk V c t) (gBlk V c t) (bBlk V c t) p q).trans ?_
  rw [pay2_row V c t p, gBlk_eq V c t, bBlk_eq V c t]
  rfl

/-- What point `t` writes back to the first output is block `t` of the whole-array function. -/
theorem flushed9_eq (c : Dev nD) (t : Fin cfg0.N) :
    (dat0 V c).flushed 9 t = ((cfg0.win 9).blk t).view.read (Elt Ideal) (edgeOf V c) := by
  show (cfg0.win 9).cut (grid0.coords t) ((dat0 V c).after 9 t) = _
  rw [after0_9]
  unfold out0_9
  rw [View.canon_unit_zero hz]
  simp only [View.ld_unit_zero (S := S2000x128) hz, View.ld_unit_zero (S := S384x64) hz, View.ld_unit_zero (S := S1x64) hz,
    View.ld_unit_zero (S := S64x128) hz, View.ld_unit_zero (S := S1x128) hz]
  funext j
  obtain ⟨p, q, rfl⟩ : ∃ (p : Fin 2000) (q : Fin 128), j = ix2 p q := ⟨j 0, j 1, eq_ix2 j⟩
  show k0_pay2 (F := Ideal) (xrBlk V c t) (xcBlk V c t) (eaBlk V c t) (w1Blk V c t) (b1Blk V c t) (w2Blk V c t) (b2Blk V c t) (ix2 p q)
    = edgeOf V c (((cfg0.win 9).blk t).view.emb (ix2 p q))
  rw [emb9 t p q]
  exact pay2_entry V c t p q

/-- What point `t` writes back to the second output is block `t` of its whole-array function. -/
theorem flushed10_eq (c : Dev nD) (t : Fin cfg0.N) :
    (dat0 V c).flushed 10 t = ((cfg0.win 10).blk t).view.read (Elt Ideal) (lnOf V c) := by
  show (cfg0.win 10).cut (grid0.coords t) ((dat0 V c).after 10 t) = _
  rw [after0_10]
  unfold out0_10
  rw [View.canon_unit_zero hz]
  simp only [View.ld_unit_zero (S := S2000x128) hz, View.ld_unit_zero (S := S384x64) hz, View.ld_unit_zero (S := S1x64) hz,
    View.ld_unit_zero (S := S64x128) hz, View.ld_unit_zero (S := S1x128) hz]
  funext j
  obtain ⟨p, q, rfl⟩ : ∃ (p : Fin 2000) (q : Fin 128), j = ix2 p q := ⟨j 0, j 1, eq_ix2 j⟩
  show k0_pay1 (F := Ideal)
        (k0_pay4 (xrBlk V c t) (xcBlk V c t) (eaBlk V c t) (w1Blk V c t) (b1Blk V c t) (w2Blk V c t) (b2Blk V c t))
        (k0_pay5 (xrBlk V c t) (xcBlk V c t) (eaBlk V c t) (w1Blk V c t) (b1Blk V c t) (w2Blk V c t) (b2Blk V c t))
        (gBlk V c t) (bBlk V c t) (ix2 p q)
    = lnOf V c (((cfg0.win 10).blk t).view.emb (ix2 p q))
  rw [emb10 t p q]
  exact pay1_entry V c t p q

/-! ## The blocks tile the rows -/

/-- An index of the array is in point `t`'s block iff each coordinate is in the block's range on its axis. -/
theorem mem_blk9 (t : Fin cfg0.N) (i : S640000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v10_0).slice (win0_9.rect t)).set ↔ _
  rw [View.set_slice_whole, Rect.mem_set_unit]
  exact Iff.rfl

theorem mem_blk10 (t : Fin cfg0.N) (i : S640000x128.Idx) :
    i ∈ ((cfg0.win 10).blk t).view.set ↔ ∀ a : Fin 2, win0_10.index t a * S2000x128.size a ≤ (i a).val ∧ (i a).val < win0_10.index t a * S2000x128.size a + S2000x128.size a := by
  show i ∈ ((View.whole main_v10_1).slice (win0_10.rect t)).set ↔ _
  rw [View.set_slice_whole, Rect.mem_set_unit]
  exact Iff.rfl

/-- The point whose block holds row `r`: `r / 2000`. -/
theorem pointOf (i : S640000x128.Idx) : ∃ t : Fin cfg0.N, t.val = (i 0).val / 2000 := by
  have hN : cfg0.N = 320 := N_0
  have hi0 : (i 0).val < 640000 := (i 0).isLt
  exact ⟨⟨(i 0).val / 2000, by omega⟩, rfl⟩

/-- Every index of the first output is in some point's block. -/
theorem cover9 (i : S640000x128.Idx) :
    ∃ t : Fin cfg0.N, (cfg0.win 9).flush t = true ∧ i ∈ ((cfg0.win 9).blk t).view.set := by
  have hi1 : (i 1).val < 128 := (i 1).isLt
  obtain ⟨t, ht⟩ := pointOf i
  obtain ⟨-, -, -, -, -, -, -, -, -, ⟨e0, e1⟩, -⟩ := idx_facts t
  refine ⟨t, flush0_9 t, ?_⟩
  rw [mem_blk9]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 128 ≤ (i 1).val ∧ (i 1).val < win0_9.index t (1 : Fin 2) * 128 + 128; omega

/-- Every index of the second output is in some point's block. -/
theorem cover10 (i : S640000x128.Idx) :
    ∃ t : Fin cfg0.N, (cfg0.win 10).flush t = true ∧ i ∈ ((cfg0.win 10).blk t).view.set := by
  have hi1 : (i 1).val < 128 := (i 1).isLt
  obtain ⟨t, ht⟩ := pointOf i
  obtain ⟨-, -, -, -, -, -, -, -, -, -, ⟨e0, e1⟩⟩ := idx_facts t
  refine ⟨t, flush0_10 t, ?_⟩
  rw [mem_blk10]
  intro a
  match a with
  | ⟨0, _⟩ => show win0_10.index t (0 : Fin 2) * 2000 ≤ (i 0).val ∧ (i 0).val < win0_10.index t (0 : Fin 2) * 2000 + 2000; omega
  | ⟨1, _⟩ => show win0_10.index t (1 : Fin 2) * 128 ≤ (i 1).val ∧ (i 1).val < win0_10.index t (1 : Fin 2) * 128 + 128; omega

/-! ## The arrays after the run -/

/-- The updated edge array `e + MLP [x[row], x[col], e]` the region leaves in its first output. -/
theorem final0_9 (c : Dev nD) :
    (dat0 V c).arrAt 9 cfg0.N
      = edgeArr (V c main_v4) (V c main_v5) (V c main_arg2) (V c main_arg4) (V c main_v6) (V c main_arg6) (V c main_v7) :=
  (dat0 V c).arrAt_eq_of_cover 9 (edgeOf V c) (fun t _ => flushed9_eq V c t) cover9

/-- Its layer normalisation, the region's second output. -/
theorem final0_10 (c : Dev nD) :
    (dat0 V c).arrAt 10 cfg0.N
      = lnArr (edgeArr (V c main_v4) (V c main_v5) (V c main_arg2) (V c main_arg4) (V c main_v6) (V c main_arg6) (V c main_v7))
          (V c main_v8) (V c main_v9) :=
  (dat0 V c).arrAt_eq_of_cover 10 (lnOf V c) (fun t _ => flushed10_eq V c t) cover10

end Cert.KernelIdeal.EdgeBlocks

end
-- ==== Proof.NodeRows.lean ====
/-
  The node kernel's body at one entry of a block: the value stored at row `p`, column `q` of the output block is
  the layer normalisation of row `p` of the residual perceptron of the two input blocks.
-/
import proofs.«414419_j60069412602312_1_alg».proof.Proof.Gen.KernelIdeal.Frame
import proofs.«414419_j60069412602312_1_alg».proof.Proof.RowSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.NodeRows

open Cert.KernelIdeal Cert.KernelIdeal.Gen Cert.RowSpec ValueIdx
/-! ## Layout operations of the node kernel read at an entry -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, 0)`, the vector's entry `p`. -/
theorem shapeCast_a_a1_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h _ _ (by
    rw [Shape.rowMajor_val_two, Shape.rowMajor_val_one]
    show p.val = p.val * 1 + 0
    omega)

/-- The sum over the 128 lanes of a `[2000, 128]` block, at row `p`. -/
theorem laneSum_apply (src : FVec Ideal S2000x128 .f32) (hφ : FKind.Formats .f32)
    (hacc : (0x00000000#32 : BitVec 32) = FKind.add.neutral .f32 hφ) (p : Fin 2000) :
    multiReduction (F := Ideal) .add [1] S2000 src 0x00000000#32 reduces_S2000x128_S2000 hφ hacc (ix1 p)
      = ∑ q : Fin 128, src (ix2 p q) := by
  refine (Ideal.multiReduction_add_single src 0x00000000#32 reduces_S2000x128_S2000 hφ hacc (ix1 p)).trans ?_
  refine Finset.sum_congr rfl fun q _ => congrArg src ?_
  funext a
  apply Fin.ext
  match a with
  | ⟨0, _⟩ => rfl
  | ⟨1, _⟩ => rfl

/-- Two `[2000, 128]` blocks laid side by side along the columns, at `(p, l)`: the two rows side by side. -/
theorem concat_apply (a b : FVec Ideal S2000x128 .f32) (p : Fin 2000) (l : Fin 256) :
    concatenate S2000x256 1 [⟨S2000x128, a⟩, ⟨S2000x128, b⟩] concatenates_S2000x128_S2000x128_S2000x256_d1 (ix2 p l)
      = cat2 (row a p) (row b p) l := by
  unfold cat2
  split
  · next h =>
    exact concatenate_pair_apply_left 1 a b _ (ix2 p l) rfl (ix2 p (⟨l.val, h⟩ : Fin 128))
      (fun bb => by match bb with | ⟨0, _⟩ => rfl | ⟨1, _⟩ => rfl)
  · next h =>
    exact concatenate_pair_apply_right 1 a b _ (ix2 p l) rfl rfl (ix2 p (⟨l.val - 128, by omega⟩ : Fin 128))
      (fun bb hb => by match bb with | ⟨0, _⟩ => rfl | ⟨1, _⟩ => exact absurd rfl hb)
      (by show (l.val - 128) + 128 = l.val; omega)

/-! ## The two products of the perceptron read at an entry -/

theorem lhsA_0 (i : S2000x64.Idx) (q : dot_S2000x256_S256x64_S2000x64_1_0_0_1_n_n.contr.Idx) :
    (dot_S2000x256_S256x64_S2000x64_1_0_0_1_n_n.lhsIdx i q 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
theorem lhsA_1 (i : S2000x64.Idx) (q : dot_S2000x256_S256x64_S2000x64_1_0_0_1_n_n.contr.Idx) :
    (dot_S2000x256_S256x64_S2000x64_1_0_0_1_n_n.lhsIdx i q 1).val = (q ⟨0, by decide⟩).val :=
  dot_S2000x256_S256x64_S2000x64_1_0_0_1_n_n.lhsIdx_val_of_single rfl i q
theorem rhsA_0 (i : S2000x64.Idx) (q : dot_S2000x256_S256x64_S2000x64_1_0_0_1_n_n.contr.Idx) :
    (dot_S2000x256_S256x64_S2000x64_1_0_0_1_n_n.rhsIdx i q 0).val = (q ⟨0, by decide⟩).val :=
  dot_S2000x256_S256x64_S2000x64_1_0_0_1_n_n.rhsIdx_val_of_single rfl i q
theorem rhsA_1 (i : S2000x64.Idx) (q : dot_S2000x256_S256x64_S2000x64_1_0_0_1_n_n.contr.Idx) :
    (dot_S2000x256_S256x64_S2000x64_1_0_0_1_n_n.rhsIdx i q 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

/-- The product of a `[2000, 256]` block with a `[256, 64]` matrix into the zero block, at `(p, c)`: the sum over the 256 shared coordinates. -/
theorem matmulA_apply {φ₁ φ₂ : FTy} (x : FVec Ideal S2000x256 φ₁) (w : FVec Ideal S256x64 φ₂) (p : Fin 2000) (c : Fin 64) :
    matmul (F := Ideal) dot_S2000x256_S256x64_S2000x64_1_0_0_1_n_n none x w (constant (F := Ideal) S2000x64 .f32 0x00000000#32) (ix2 p c)
      = ∑ k : Fin 256, x (ix2 p k) * w (ix2 k c) := by
  simp only [matmul]
  rw [Ideal.matmul_constant_zero_apply, ← Equiv.sum_comp (ValueIdx.contrEquiv1 dot_S2000x256_S256x64_S2000x64_1_0_0_1_n_n 256 rfl rfl).symm]
  refine Finset.sum_congr rfl fun k _ => ?_
  have hk := ValueIdx.contrEquiv1_symm_val dot_S2000x256_S256x64_S2000x64_1_0_0_1_n_n 256 rfl rfl k
  have el : dot_S2000x256_S256x64_S2000x64_1_0_0_1_n_n.lhsIdx (ix2 p c) ((ValueIdx.contrEquiv1 dot_S2000x256_S256x64_S2000x64_1_0_0_1_n_n 256 rfl rfl).symm k) = ix2 p k := funext fun a => Fin.ext (by
    match a with
    | ⟨0, _⟩ => exact lhsA_0 _ _
    | ⟨1, _⟩ => exact (lhsA_1 _ _).trans hk)
  have er : dot_S2000x256_S256x64_S2000x64_1_0_0_1_n_n.rhsIdx (ix2 p c) ((ValueIdx.contrEquiv1 dot_S2000x256_S256x64_S2000x64_1_0_0_1_n_n 256 rfl rfl).symm k) = ix2 k c := funext fun a => Fin.ext (by
    match a with
    | ⟨0, _⟩ => exact (rhsA_0 _ _).trans hk
    | ⟨1, _⟩ => exact rhsA_1 _ _)
  rw [el, er]

theorem lhsB_0 (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
theorem lhsB_1 (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
theorem rhsB_0 (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
theorem rhsB_1 (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- The product of a `[2000, 64]` block with a `[64, 128]` matrix into the zero block, at `(p, c)`: the sum over the 64 shared coordinates. -/
theorem matmulB_apply {φ₁ φ₂ : FTy} (x : FVec Ideal S2000x64 φ₁) (w : FVec Ideal S64x128 φ₂) (p : Fin 2000) (c : Fin 128) :
    matmul (F := Ideal) dot_S2000x64_S64x128_S2000x128_1_0_0_1_n_n none x w (constant (F := Ideal) S2000x128 .f32 0x00000000#32) (ix2 p c)
      = ∑ k : Fin 64, x (ix2 p k) * w (ix2 k c) := by
  simp only [matmul]
  rw [Ideal.matmul_constant_zero_apply, ← Equiv.sum_comp (ValueIdx.contrEquiv1 dot_S2000x64_S64x128_S2000x128_1_0_0_1_n_n 64 rfl rfl).symm]
  refine Finset.sum_congr rfl fun k _ => ?_
  have hk := ValueIdx.contrEquiv1_symm_val dot_S2000x64_S64x128_S2000x128_1_0_0_1_n_n 64 rfl rfl k
  have el : dot_S2000x64_S64x128_S2000x128_1_0_0_1_n_n.lhsIdx (ix2 p c) ((ValueIdx.contrEquiv1 dot_S2000x64_S64x128_S2000x128_1_0_0_1_n_n 64 rfl rfl).symm k) = ix2 p k := funext fun a => Fin.ext (by
    match a with
    | ⟨0, _⟩ => exact lhsB_0 _ _
    | ⟨1, _⟩ => exact (lhsB_1 _ _).trans hk)
  have er : dot_S2000x64_S64x128_S2000x128_1_0_0_1_n_n.rhsIdx (ix2 p c) ((ValueIdx.contrEquiv1 dot_S2000x64_S64x128_S2000x128_1_0_0_1_n_n 64 rfl rfl).symm k) = ix2 k c := funext fun a => Fin.ext (by
    match a with
    | ⟨0, _⟩ => exact (rhsB_0 _ _).trans hk
    | ⟨1, _⟩ => exact rhsB_1 _ _)
  rw [el, er]

/-! ## The residual perceptron payload -/

/-- The hidden layer of the node perceptron as a `[2000, 64]` block: the two input blocks side by side, times the first
    weight matrix, plus the first bias row, clamped below at zero. -/
def hiddenBlock (x0 x1 : Vec Ideal S2000x128 .f32) (x2 : Vec Ideal S256x64 .f32) (x3 : Vec Ideal S1x64 .f32) :
    FVec Ideal S2000x64 .f32 :=
  maximumf
    (addf
      (matmul (F := Ideal) dot_S2000x256_S256x64_S2000x64_1_0_0_1_n_n none
        (truncf .bf16 (concatenate S2000x256 1 [⟨S2000x128, x0⟩, ⟨S2000x128, shapeCast S2000x128 x1 shapeCasts_S2000x128_S2000x128⟩]
          concatenates_S2000x128_S2000x128_S2000x256_d1 : FVec Ideal S2000x256 .f32) bitsLt_bf16_f32)
        (truncf .bf16 x2 bitsLt_bf16_f32) (constant (F := Ideal) S2000x64 .f32 0x00000000#32))
      (broadcastTo S2000x64 (shapeCast S1x64 x3 shapeCasts_S1x64_S1x64) broadcasts_S1x64_S2000x64))
    (broadcast S2000x64 (Scalar.ofBits (F := Ideal) .f32 0x00000000#32))

/-- The payload is the residual block plus the hidden block times the second weight matrix plus the second bias row. -/
theorem pay2_eq (x0 x1 : Vec Ideal S2000x128 .f32) (x2 : Vec Ideal S256x64 .f32) (x3 : Vec Ideal S1x64 .f32)
    (x4 : Vec Ideal S64x128 .f32) (x5 : Vec Ideal S1x128 .f32) :
    k1_pay2 (F := Ideal) x0 x1 x2 x3 x4 x5
      = addf x0 (addf
          (matmul (F := Ideal) dot_S2000x64_S64x128_S2000x128_1_0_0_1_n_n none
            (truncf .bf16 (hiddenBlock x0 x1 x2 x3) bitsLt_bf16_f32) (truncf .bf16 x4 bitsLt_bf16_f32)
            (constant (F := Ideal) S2000x128 .f32 0x00000000#32))
          (broadcastTo S2000x128 (shapeCast S1x128 x5 shapeCasts_S1x128_S1x128) broadcasts_S1x128_S2000x128)) := rfl

/-- The hidden block at `(p, k)` is hidden unit `k` of row `p`. -/
theorem hiddenBlock_apply (x0 x1 : Vec Ideal S2000x128 .f32) (x2 : Vec Ideal S256x64 .f32) (x3 : Vec Ideal S1x64 .f32)
    (p : Fin 2000) (k : Fin 64) :
    hiddenBlock x0 x1 x2 x3 (ix2 p k) = RowSpec.hidden (cat2 (row x0 p) (row x1 p)) (row x2) (row x3 0) k := by
  unfold hiddenBlock RowSpec.hidden
  rw [maximumf_apply, addf_apply, matmulA_apply, broadcastTo_1b_ab_apply, shapeCast_self, shapeCast_self]
  refine congrArg (fun t => max (t + x3 (ix2 (0 : Fin 1) k)) (Ideal.ofBits .f32 0x00000000#32)) ?_
  refine Finset.sum_congr rfl fun l _ => ?_
  rw [truncf_apply, truncf_apply, concat_apply]
  rfl

/-- The residual perceptron payload at entry `(p, q)` of the block. -/
theorem pay2_apply (x0 x1 : Vec Ideal S2000x128 .f32) (x2 : Vec Ideal S256x64 .f32) (x3 : Vec Ideal S1x64 .f32)
    (x4 : Vec Ideal S64x128 .f32) (x5 : Vec Ideal S1x128 .f32) (p : Fin 2000) (q : Fin 128) :
    k1_pay2 (F := Ideal) x0 x1 x2 x3 x4 x5 (ix2 p q)
      = mlpRow (row x0 p) (cat2 (row x0 p) (row x1 p)) (row x2) (row x3 0) (row x4) (row x5 0) q := by
  rw [pay2_eq]
  unfold mlpRow
  rw [addf_apply, addf_apply, matmulB_apply, broadcastTo_1b_ab_apply, shapeCast_self]
  refine congrArg (fun t => x0 (ix2 p q) + (t + x5 (ix2 (0 : Fin 1) q))) ?_
  refine Finset.sum_congr rfl fun k _ => ?_
  rw [truncf_apply, truncf_apply, hiddenBlock_apply]
  rfl

/-! ## Layer normalisation of a block, row by row -/

/-- The means of the rows of a `[2000, 128]` block, as a column: each row's sum divided by 128. -/
def meanCol (y : FVec Ideal S2000x128 .f32) : FVec Ideal S2000x1 .f32 :=
  divf
    (shapeCast S2000x1
      (multiReduction (F := Ideal) .add [1] S2000 y 0x00000000#32 reduces_S2000x128_S2000 (.inl rfl) rfl)
      shapeCasts_S2000_S2000x1)
    (broadcast S2000x1 (Scalar.ofBits (F := Ideal) .f32 0x43000000#32))

/-- The mean column at row `p` is the mean of row `p`. -/
theorem meanCol_apply (y : FVec Ideal S2000x128 .f32) (p : Fin 2000) :
    meanCol y (ix2 p (0 : Fin 1)) = mean128 (row y p) := by
  unfold meanCol mean128
  rw [divf_apply, shapeCast_a_a1_apply]
  exact congrArg (fun t => Ideal.div t (Ideal.ofBits .f32 0x43000000#32)) (laneSum_apply y _ _ p)

/-- A block minus its rows' means. -/
def centredBlock (y : FVec Ideal S2000x128 .f32) : FVec Ideal S2000x128 .f32 :=
  subf y (broadcastTo S2000x128 (meanCol y) broadcasts_S2000x1_S2000x128)

/-- The centred block at `(p, q)` is entry `q` of the centred row `p`. -/
theorem centredBlock_apply (y : FVec Ideal S2000x128 .f32) (p : Fin 2000) (q : Fin 128) :
    centredBlock y (ix2 p q) = centred (row y p) q := by
  unfold centredBlock centred
  rw [subf_apply, broadcastTo_a1_ab_apply, meanCol_apply]
  rfl

/-- The reciprocal square roots of the rows' variances plus ε, as a column. -/
def rstdCol (y : FVec Ideal S2000x128 .f32) : FVec Ideal S2000x1 .f32 :=
  rsqrt (addf (meanCol (mulf (centredBlock y) (centredBlock y)))
    (broadcast S2000x1 (Scalar.ofBits (F := Ideal) .f32 0x3727C5AC#32)))

/-- That column at row `p`: the reciprocal square root of row `p`'s variance plus ε. -/
theorem rstdCol_apply (y : FVec Ideal S2000x128 .f32) (p : Fin 2000) :
    rstdCol y (ix2 p (0 : Fin 1)) = Ideal.rsqrt (var128 (row y p) + Ideal.ofBits .f32 0x3727C5AC#32) := by
  unfold rstdCol var128
  show Ideal.rsqrt (meanCol (mulf (centredBlock y) (centredBlock y)) (ix2 p (0 : Fin 1)) + Ideal.ofBits .f32 0x3727C5AC#32) = _
  rw [meanCol_apply]
  refine congrArg (fun t => Ideal.rsqrt (mean128 t + Ideal.ofBits .f32 0x3727C5AC#32)) ?_
  funext j
  show centredBlock y (ix2 p j) * centredBlock y (ix2 p j) = _
  rw [centredBlock_apply]

/-- The kernel's mean column is the mean column of the perceptron payload. -/
theorem pay3_eq (x0 x1 : Vec Ideal S2000x128 .f32) (x2 : Vec Ideal S256x64 .f32) (x3 : Vec Ideal S1x64 .f32)
    (x4 : Vec Ideal S64x128 .f32) (x5 : Vec Ideal S1x128 .f32) :
    k1_pay3 (F := Ideal) x0 x1 x2 x3 x4 x5 = meanCol (k1_pay2 (F := Ideal) x0 x1 x2 x3 x4 x5) := rfl

/-- The kernel's centred block is the centred perceptron payload. -/
theorem pay4_eq (x0 x1 : Vec Ideal S2000x128 .f32) (x2 : Vec Ideal S256x64 .f32) (x3 : Vec Ideal S1x64 .f32)
    (x4 : Vec Ideal S64x128 .f32) (x5 : Vec Ideal S1x128 .f32) :
    k1_pay4 (F := Ideal) x0 x1 x2 x3 x4 x5 = centredBlock (k1_pay2 (F := Ideal) x0 x1 x2 x3 x4 x5) := rfl

/-- The kernel's reciprocal-root column is that of the perceptron payload. -/
theorem pay5_eq (x0 x1 : Vec Ideal S2000x128 .f32) (x2 : Vec Ideal S256x64 .f32) (x3 : Vec Ideal S1x64 .f32)
    (x4 : Vec Ideal S64x128 .f32) (x5 : Vec Ideal S1x128 .f32) :
    k1_pay5 (F := Ideal) x0 x1 x2 x3 x4 x5 = rstdCol (k1_pay2 (F := Ideal) x0 x1 x2 x3 x4 x5) := rfl

/-- The stored payload: the centred block times the reciprocal-root column, times the scale row, plus the shift row. -/
theorem pay1_eq (c : FVec Ideal S2000x128 .f32) (r : FVec Ideal S2000x1 .f32) (x6 x7 : Vec Ideal S1x128 .f32) :
    k1_pay1 (F := Ideal) c r x6 x7
      = addf
          (mulf (mulf c (broadcastTo S2000x128 r broadcasts_S2000x1_S2000x128))
            (broadcastTo S2000x128 (shapeCast S1x128 x6 shapeCasts_S1x128_S1x128) broadcasts_S1x128_S2000x128))
          (broadcastTo S2000x128 (shapeCast S1x128 x7 shapeCasts_S1x128_S1x128) broadcasts_S1x128_S2000x128) := rfl

/-- The normalised payload at entry `(p, q)`: layer normalisation of row `p` of the residual perceptron payload. -/
theorem pay1_apply (x0 x1 : Vec Ideal S2000x128 .f32) (x2 : Vec Ideal S256x64 .f32) (x3 : Vec Ideal S1x64 .f32)
    (x4 : Vec Ideal S64x128 .f32) (x5 x6 x7 : Vec Ideal S1x128 .f32) (p : Fin 2000) (q : Fin 128) :
    k1_pay1 (F := Ideal) (k1_pay4 x0 x1 x2 x3 x4 x5) (k1_pay5 x0 x1 x2 x3 x4 x5) x6 x7 (ix2 p q)
      = lnRow (row (k1_pay2 (F := Ideal) x0 x1 x2 x3 x4 x5) p) (row x6 0) (row x7 0) q := by
  rw [pay4_eq, pay5_eq]
  generalize k1_pay2 (F := Ideal) x0 x1 x2 x3 x4 x5 = y
  rw [pay1_eq]
  unfold lnRow
  rw [addf_apply, mulf_apply, mulf_apply, broadcastTo_a1_ab_apply, broadcastTo_1b_ab_apply, broadcastTo_1b_ab_apply,
    shapeCast_self, shapeCast_self, centredBlock_apply, rstdCol_apply]
  rfl

end Cert.KernelIdeal.NodeRows

end
-- ==== Proof.NodeBlocks.lean ====
/-
  The node region's output array after its run, as a whole-array function of the arrays the region finds:
  every grid point writes back block `t` (rows 2000·t … 2000·t + 1999) of one function of the input arrays, the blocks
  tile the 100000 rows, so the output array ends holding that function.
-/
import proofs.«414419_j60069412602312_1_alg».proof.Proof.Gen.KernelIdeal.Frame
import proofs.«414419_j60069412602312_1_alg».proof.Proof.RowSpec
import proofs.«414419_j60069412602312_1_alg».proof.Proof.NodeRows
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.NodeBlocks

open Cert.KernelIdeal Cert.KernelIdeal.Gen Cert.RowSpec ValueIdx

variable (V : (c : Dev nD) → (b : Ref sig .tc) → Buf (Elt Ideal) ((c : Thread nD τ).loc b))

theorem hz : (![0, 0] : Fin 2 → Nat) = fun _ => 0 := funext fun a => by fin_cases a <;> rfl

/-- The index maps, decided once over the grid: at point `t` the row-block windows (the node rows, the aggregated rows, the
    output) sit at block `(t, 0)`, the weight windows at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_8.index t (0 : Fin 2) = t.val ∧ win1_8.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- The grid has 50 points. -/
theorem t_lt (t : Fin cfg1.N) : t.val < 50 := by
  have h : cfg1.N = 50 := N_1
  have := t.isLt
  omega

/-! ## The blocks and the arrays, by their literal types -/

abbrev xBlk (c : Dev nD) (t : Fin cfg1.N) : Vec Ideal S2000x128 .f32 := iblk1 V c 0 t
abbrev aBlk (c : Dev nD) (t : Fin cfg1.N) : Vec Ideal S2000x128 .f32 := iblk1 V c 1 t
abbrev w1Blk (c : Dev nD) (t : Fin cfg1.N) : Vec Ideal S256x64 .f32 := iblk1 V c 2 t
abbrev b1Blk (c : Dev nD) (t : Fin cfg1.N) : Vec Ideal S1x64 .f32 := iblk1 V c 3 t
abbrev w2Blk (c : Dev nD) (t : Fin cfg1.N) : Vec Ideal S64x128 .f32 := iblk1 V c 4 t
abbrev b2Blk (c : Dev nD) (t : Fin cfg1.N) : Vec Ideal S1x128 .f32 := iblk1 V c 5 t
abbrev gBlk (c : Dev nD) (t : Fin cfg1.N) : Vec Ideal S1x128 .f32 := iblk1 V c 6 t
abbrev bBlk (c : Dev nD) (t : Fin cfg1.N) : Vec Ideal S1x128 .f32 := iblk1 V c 7 t

abbrev xArr (c : Dev nD) : A2 100000 128 := V c main_arg0
abbrev aArr (c : Dev nD) : A2 100000 128 := V c main_v22
abbrev w1Arr (c : Dev nD) : A2 256 64 := V c main_arg8
abbrev b1Arr (c : Dev nD) : A2 1 64 := V c main_v23
abbrev w2Arr (c : Dev nD) : A2 64 128 := V c main_arg10
abbrev b2Arr (c : Dev nD) : A2 1 128 := V c main_v24
abbrev gArr (c : Dev nD) : A2 1 128 := V c main_v25
abbrev bArr (c : Dev nD) : A2 1 128 := V c main_v26

/-- The updated node array `x + MLP [x, agg]`. -/
abbrev hArr (c : Dev nD) : A2 100000 128 :=
  nodeArr (xArr V c) (aArr V c) (w1Arr V c) (b1Arr V c) (w2Arr V c) (b2Arr V c)

/-- The region's result: the layer normalisation of the updated node array. -/
abbrev G (c : Dev nD) : A2 100000 128 := lnArr (hArr V c) (gArr V c) (bArr V c)

/-- Row `p` of block `t` is row `2000·t + p` of the array. -/
def blkRow (t : Fin cfg1.N) (p : Fin 2000) : Fin 100000 := ⟨2000 * t.val + p.val, by have := t_lt t; omega⟩

/-! ## Each input block, read off its array -/

theorem xBlk_row (c : Dev nD) (t : Fin cfg1.N) (p : Fin 2000) :
    row (xBlk V c t) p = row (xArr V c) (blkRow t p) := by
  obtain ⟨e0, e1, -⟩ := idx_facts t
  funext q
  show V c main_arg0 (((cfg1.win 0).blk t).view.emb (ix2 p q)) = V c main_arg0 (ix2 (blkRow t p) q)
  refine congrArg _ ?_
  funext a; apply Fin.ext
  match a with
  | ⟨0, _⟩ => show win1_0.index t (0 : Fin 2) * 2000 + 1 * p.val = 2000 * t.val + p.val; omega
  | ⟨1, _⟩ => show win1_0.index t (1 : Fin 2) * 128 + 1 * q.val = q.val; omega

theorem aBlk_row (c : Dev nD) (t : Fin cfg1.N) (p : Fin 2000) :
    row (aBlk V c t) p = row (aArr V c) (blkRow t p) := by
  obtain ⟨-, -, e0, e1, -⟩ := idx_facts t
  funext q
  show V c main_v22 (((cfg1.win 1).blk t).view.emb (ix2 p q)) = V c main_v22 (ix2 (blkRow t p) q)
  refine congrArg _ ?_
  funext a; apply Fin.ext
  match a with
  | ⟨0, _⟩ => show win1_1.index t (0 : Fin 2) * 2000 + 1 * p.val = 2000 * t.val + p.val; omega
  | ⟨1, _⟩ => show win1_1.index t (1 : Fin 2) * 128 + 1 * q.val = q.val; omega

theorem w1Blk_eq (c : Dev nD) (t : Fin cfg1.N) : w1Blk V c t = w1Arr V c := by
  obtain ⟨-, -, -, -, -, -, e0, e1, -⟩ := idx_facts t
  funext y
  show V c main_arg8 (((cfg1.win 2).blk t).view.emb y) = V c main_arg8 y
  refine congrArg _ ?_
  funext a; apply Fin.ext
  match a with
  | ⟨0, _⟩ => show win1_2.index t (0 : Fin 2) * 256 + 1 * (y 0).val = (y 0).val; omega
  | ⟨1, _⟩ => show win1_2.index t (1 : Fin 2) * 64 + 1 * (y 1).val = (y 1).val; omega

theorem b1Blk_eq (c : Dev nD) (t : Fin cfg1.N) : b1Blk V c t = b1Arr V c := by
  obtain ⟨-, -, -, -, -, -, -, -, e0, e1, -⟩ := idx_facts t
  funext y
  show V c main_v23 (((cfg1.win 3).blk t).view.emb y) = V c main_v23 y
  refine congrArg _ ?_
  funext a; apply Fin.ext
  match a with
  | ⟨0, _⟩ => show win1_3.index t (0 : Fin 2) * 1 + 1 * (y 0).val = (y 0).val; omega
  | ⟨1, _⟩ => show win1_3.index t (1 : Fin 2) * 64 + 1 * (y 1).val = (y 1).val; omega

theorem w2Blk_eq (c : Dev nD) (t : Fin cfg1.N) : w2Blk V c t = w2Arr V c := by
  obtain ⟨-, -, -, -, -, -, -, -, -, -, e0, e1, -⟩ := idx_facts t
  funext y
  show V c main_arg10 (((cfg1.win 4).blk t).view.emb y) = V c main_arg10 y
  refine congrArg _ ?_
  funext a; apply Fin.ext
  match a with
  | ⟨0, _⟩ => show win1_4.index t (0 : Fin 2) * 64 + 1 * (y 0).val = (y 0).val; omega
  | ⟨1, _⟩ => show win1_4.index t (1 : Fin 2) * 128 + 1 * (y 1).val = (y 1).val; omega

theorem b2Blk_eq (c : Dev nD) (t : Fin cfg1.N) : b2Blk V c t = b2Arr V c := by
  obtain ⟨-, -, -, -, -, -, -, -, -, -, -, -, e0, e1, -⟩ := idx_facts t
  funext y
  show V c main_v24 (((cfg1.win 5).blk t).view.emb y) = V c main_v24 y
  refine congrArg _ ?_
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

theorem gBlk_eq (c : Dev nD) (t : Fin cfg1.N) : gBlk V c t = gArr V c := by
  obtain ⟨-, -, -, -, -, -, -, -, -, -, -, -, -, -, e0, e1, -⟩ := idx_facts t
  funext y
  show V c main_v25 (((cfg1.win 6).blk t).view.emb y) = V c main_v25 y
  refine congrArg _ ?_
  funext a; apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega

theorem bBlk_eq (c : Dev nD) (t : Fin cfg1.N) : bBlk V c t = bArr V c := by
  obtain ⟨-, -, -, -, -, -, -, -, -, -, -, -, -, -, -, -, e0, e1⟩ := idx_facts t
  funext y
  show V c main_v26 (((cfg1.win 7).blk t).view.emb y) = V c main_v26 y
  refine congrArg _ ?_
  funext a; apply Fin.ext
  match a with
  | ⟨0, _⟩ => show win1_7.index t (0 : Fin 2) * 1 + 1 * (y 0).val = (y 0).val; omega
  | ⟨1, _⟩ => show win1_7.index t (1 : Fin 2) * 128 + 1 * (y 1).val = (y 1).val; omega

/-- Where entry `(p, q)` of the output's block `t` sits in the array. -/
theorem out_emb (t : Fin cfg1.N) (p : Fin 2000) (q : Fin 128) :
    ((cfg1.win 8).blk t).view.emb (ix2 p q) = (ix2 (blkRow t p) q : S100000x128.Idx) := by
  obtain ⟨-, -, -, -, e0, e1, -⟩ := idx_facts t
  funext a; apply Fin.ext
  match a with
  | ⟨0, _⟩ => show win1_8.index t (0 : Fin 2) * 2000 + 1 * p.val = 2000 * t.val + p.val; omega
  | ⟨1, _⟩ => show win1_8.index t (1 : Fin 2) * 128 + 1 * q.val = q.val; omega

/-! ## The body's result at a point, as rows of the arrays -/

/-- Row `p` of the residual perceptron of block `t` is row `2000·t + p` of the updated node array. -/
theorem hBlk_row (c : Dev nD) (t : Fin cfg1.N) (p : Fin 2000) :
    row (k1_pay2 (F := Ideal) (xBlk V c t) (aBlk V c t) (w1Blk V c t) (b1Blk V c t) (w2Blk V c t) (b2Blk V c t)) p
      = row (hArr V c) (blkRow t p) := by
  funext q
  refine (NodeRows.pay2_apply (xBlk V c t) (aBlk V c t) (w1Blk V c t) (b1Blk V c t) (w2Blk V c t) (b2Blk V c t) p q).trans ?_
  show mlpRow (row (xBlk V c t) p) (cat2 (row (xBlk V c t) p) (row (aBlk V c t) p)) (row (w1Blk V c t)) (row (b1Blk V c t) 0)
        (row (w2Blk V c t)) (row (b2Blk V c t) 0) q
      = mlpRow (row (xArr V c) (blkRow t p)) (cat2 (row (xArr V c) (blkRow t p)) (row (aArr V c) (blkRow t p))) (row (w1Arr V c))
        (row (b1Arr V c) 0) (row (w2Arr V c)) (row (b2Arr V c) 0) q
  rw [xBlk_row V c t p, aBlk_row V c t p, w1Blk_eq V c t, b1Blk_eq V c t, w2Blk_eq V c t, b2Blk_eq V c t]

/-- WHAT POINT `t` WRITES BACK is block `t` of the layer normalisation of the updated node array. -/
theorem flushed_eq (c : Dev nD) (t : Fin cfg1.N) :
    (dat1 V c).flushed 8 t = ((cfg1.win 8).blk t).view.read (Elt Ideal) (G V c) := by
  show (cfg1.win 8).cut (grid1.coords t) ((dat1 V c).after 8 t) = _
  rw [after1_8]
  unfold out1_8
  rw [View.canon_unit_zero hz]
  simp only [View.ld_unit_zero (S := S2000x128) hz, View.ld_unit_zero (S := S256x64) hz, View.ld_unit_zero (S := S1x64) hz,
    View.ld_unit_zero (S := S64x128) hz, View.ld_unit_zero (S := S1x128) hz]
  funext j
  obtain ⟨p, q, rfl⟩ : ∃ (p : Fin 2000) (q : Fin 128), j = ix2 p q := ⟨j 0, j 1, eq_ix2 j⟩
  show k1_pay1 (F := Ideal)
        (k1_pay4 (xBlk V c t) (aBlk V c t) (w1Blk V c t) (b1Blk V c t) (w2Blk V c t) (b2Blk V c t))
        (k1_pay5 (xBlk V c t) (aBlk V c t) (w1Blk V c t) (b1Blk V c t) (w2Blk V c t) (b2Blk V c t))
        (gBlk V c t) (bBlk V c t) (ix2 p q)
      = G V c (((cfg1.win 8).blk t).view.emb (ix2 p q))
  refine (NodeRows.pay1_apply (xBlk V c t) (aBlk V c t) (w1Blk V c t) (b1Blk V c t) (w2Blk V c t) (b2Blk V c t) (gBlk V c t) (bBlk V c t) p q).trans ?_
  rw [out_emb t p q, hBlk_row V c t p, gBlk_eq V c t, bBlk_eq V c t]
  rfl

/-! ## The blocks tile the array -/

/-- An index of the array is in point `t`'s block iff each coordinate is in the block's range on its axis. -/
theorem mem_blk (t : Fin cfg1.N) (i : S100000x128.Idx) :
    i ∈ ((cfg1.win 8).blk t).view.set ↔ ∀ a : Fin 2, win1_8.index t a * S2000x128.size a ≤ (i a).val ∧ (i a).val < win1_8.index t a * S2000x128.size a + S2000x128.size a := by
  show i ∈ ((View.whole main_v27).slice (win1_8.rect t)).set ↔ _
  rw [View.set_slice_whole, Rect.mem_set_unit]
  exact Iff.rfl

/-- Row `r` of the array is in the block of point `r / 2000`. -/
theorem cover (i : S100000x128.Idx) :
    ∃ t : Fin cfg1.N, (cfg1.win 8).flush t = true ∧ i ∈ ((cfg1.win 8).blk t).view.set := by
  have hi0 : (i 0).val < 100000 := (i 0).isLt
  have hi1 : (i 1).val < 128 := (i 1).isLt
  have hN : cfg1.N = 50 := N_1
  let t : Fin cfg1.N := ⟨(i 0).val / 2000, by rw [hN]; omega⟩
  have ht : t.val = (i 0).val / 2000 := rfl
  obtain ⟨-, -, -, -, e0, e1, -⟩ := idx_facts t
  refine ⟨t, flush1_8 t, ?_⟩
  rw [mem_blk]
  intro a
  match a with
  | ⟨0, _⟩ => show win1_8.index t (0 : Fin 2) * 2000 ≤ (i 0).val ∧ (i 0).val < win1_8.index t (0 : Fin 2) * 2000 + 2000; omega
  | ⟨1, _⟩ => show win1_8.index t (1 : Fin 2) * 128 ≤ (i 1).val ∧ (i 1).val < win1_8.index t (1 : Fin 2) * 128 + 128; omega

/-- The layer normalisation of the updated node array `x + MLP [x, agg]`, the region's output. -/
theorem final1_8 (c : Dev nD) :
    (dat1 V c).arrAt 8 cfg1.N
      = lnArr (nodeArr (V c main_arg0) (V c main_v22) (V c main_arg8) (V c main_v23) (V c main_arg10) (V c main_v24))
          (V c main_v25) (V c main_v26) :=
  (dat1 V c).arrAt_eq_of_cover 8 (G V c) (fun t _ => flushed_eq V c t) cover

end Cert.KernelIdeal.NodeBlocks

end
-- ==== Proof.RefEdge.lean ====
/-
  The reference's edge stages as whole-array row functions: the updated edge array is the residual perceptron of rows
  of the gathered node arrays and the edge array, and the second result is its layer normalisation.
-/
import proofs.«414419_j60069412602312_1_alg».proof.Proof.Gen.ReferenceIdeal.Read
import proofs.«414419_j60069412602312_1_alg».proof.Proof.RowSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.ReferenceIdeal.EdgeStages

open Cert.ReferenceIdeal Cert.ReferenceIdeal.Gen Cert.ReferenceIdeal.Read Cert.RowSpec ValueIdx

variable (x0 : (⟨S100000x128, .f32⟩ : BufTy).Contents (Elt Ideal)) (x1 : (⟨S2x640000, .i32⟩ : BufTy).Contents (Elt Ideal)) (x2 : (⟨S640000x128, .f32⟩ : BufTy).Contents (Elt Ideal))
  (x4 : (⟨S384x64, .f32⟩ : BufTy).Contents (Elt Ideal)) (x5 : (⟨S64, .f32⟩ : BufTy).Contents (Elt Ideal)) (x6 : (⟨S64x128, .f32⟩ : BufTy).Contents (Elt Ideal)) (x7 : (⟨S128, .f32⟩ : BufTy).Contents (Elt Ideal))
  (x8 : (⟨S256x64, .f32⟩ : BufTy).Contents (Elt Ideal)) (x9 : (⟨S64, .f32⟩ : BufTy).Contents (Elt Ideal)) (x10 : (⟨S64x128, .f32⟩ : BufTy).Contents (Elt Ideal)) (x11 x12 x13 x14 x15 : (⟨S128, .f32⟩ : BufTy).Contents (Elt Ideal))

/-- The three-piece concatenation along the columns, read at row e and column l. -/
private theorem cat_at (ya yb yc : A2 640000 128) (e : Fin 640000) (l : Fin 384) :
    concatenate S640000x384 1 [⟨S640000x128, ya⟩, ⟨S640000x128, yb⟩, ⟨S640000x128, yc⟩]
        concatenates_S640000x128_S640000x128_S640000x128_S640000x384_d1 (ix2 e l)
      = cat3 (row ya e) (row yb e) (row yc e) l := by
  unfold cat3 row
  split
  · next h =>
    refine concatenate_apply_piece (1 : Fin 2) [⟨S640000x128, ya⟩, ⟨S640000x128, yb⟩, ⟨S640000x128, yc⟩] _ (ix2 e l)
      0 (by show (0 : Nat) < 3; omega) S640000x128 ya rfl rfl 0 rfl (ix2 e ⟨l.val, h⟩) ?_ ?_
    · intro b hb
      match b with
      | ⟨0, _⟩ => rfl
      | ⟨1, _⟩ => exact absurd rfl hb
    · show 0 + l.val = l.val
      omega
  · next h =>
    split
    · next h2 =>
      refine concatenate_apply_piece (1 : Fin 2) [⟨S640000x128, ya⟩, ⟨S640000x128, yb⟩, ⟨S640000x128, yc⟩] _ (ix2 e l)
        1 (by show (1 : Nat) < 3; omega) S640000x128 yb rfl rfl 128 rfl (ix2 e ⟨l.val - 128, by omega⟩) ?_ ?_
      · intro b hb
        match b with
        | ⟨0, _⟩ => rfl
        | ⟨1, _⟩ => exact absurd rfl hb
      · show 128 + (l.val - 128) = l.val
        omega
    · next h2 =>
      refine concatenate_apply_piece (1 : Fin 2) [⟨S640000x128, ya⟩, ⟨S640000x128, yb⟩, ⟨S640000x128, yc⟩] _ (ix2 e l)
        2 (by show (2 : Nat) < 3; omega) S640000x128 yc rfl rfl 256 rfl (ix2 e ⟨l.val - 256, by omega⟩) ?_ ?_
      · intro b hb
        match b with
        | ⟨0, _⟩ => rfl
        | ⟨1, _⟩ => exact absurd rfl hb
      · show 256 + (l.val - 256) = l.val
        omega

/-! ## The perceptron stages at row e -/

/-- Row e of the concatenated array is the three rows side by side. -/
private theorem v18_at (e : Fin 640000) (l : Fin 384) :
    val_main_v18 (F := Ideal) x0 x1 x2 (ix2 e l) = (cat3 (row (val_main_v10 (F := Ideal) x0 x1) e) (row (val_main_v17 (F := Ideal) x0 x1) e) (row x2 e)) l := by
  unfold val_main_v18
  exact cat_at _ _ _ e l

private theorem lidx19 (e : Fin 640000) (k : Fin 64) (l : Fin 384) : lidx_main_v19 (ix2 e k) l = ix2 e l :=
  funext fun a => Fin.ext (by match a with | ⟨0, _⟩ => rfl | ⟨1, _⟩ => rfl)
private theorem ridx19 (e : Fin 640000) (k : Fin 64) (l : Fin 384) : ridx_main_v19 (ix2 e k) l = ix2 l k :=
  funext fun a => Fin.ext (by match a with | ⟨0, _⟩ => rfl | ⟨1, _⟩ => rfl)
private theorem bidx21 (e : Fin 640000) (k : Fin 64) : idx_main_v20 (idx_main_v21 (ix2 e k)) = ix1 k :=
  funext fun a => Fin.ext (by match a with | ⟨0, _⟩ => rfl)
private theorem lidx24 (e : Fin 640000) (j : Fin 128) (k : Fin 64) : lidx_main_v24 (ix2 e j) k = ix2 e k :=
  funext fun a => Fin.ext (by match a with | ⟨0, _⟩ => rfl | ⟨1, _⟩ => rfl)
private theorem ridx24 (e : Fin 640000) (j : Fin 128) (k : Fin 64) : ridx_main_v24 (ix2 e j) k = ix2 k j :=
  funext fun a => Fin.ext (by match a with | ⟨0, _⟩ => rfl | ⟨1, _⟩ => rfl)
private theorem bidx26 (e : Fin 640000) (j : Fin 128) : idx_main_v25 (idx_main_v26 (ix2 e j)) = ix1 j :=
  funext fun a => Fin.ext (by match a with | ⟨0, _⟩ => rfl)

/-- The first product at row e, unit k: the sum over the 384 concatenated entries. -/
private theorem v19_at (e : Fin 640000) (k : Fin 64) :
    val_main_v19 (F := Ideal) x0 x1 x2 x4 (ix2 e k) = ∑ l : Fin 384, (cat3 (row (val_main_v10 (F := Ideal) x0 x1) e) (row (val_main_v17 (F := Ideal) x0 x1) e) (row x2 e)) l * x4 (ix2 l k) := by
  rw [val_main_v19_apply]
  refine Finset.sum_congr rfl fun l _ => ?_
  rw [lidx19, ridx19, v18_at]

/-- Hidden unit k of row e. -/
private theorem v23_at (e : Fin 640000) (k : Fin 64) :
    val_main_v23 (F := Ideal) x0 x1 x2 x4 x5 (ix2 e k) = (hidden (cat3 (row (val_main_v10 (F := Ideal) x0 x1) e) (row (val_main_v17 (F := Ideal) x0 x1) e) (row x2 e)) (row x4) (row (rowOf x5) 0)) k := by
  rw [val_main_v23_apply, val_main_v22_apply, v19_at, val_main_v21_apply, val_main_v20_apply, bidx21,
    val_main_call0_v0_apply, val_main_call0_cst_apply]
  generalize (val_main_v10 (F := Ideal) x0 x1) = ya
  generalize (val_main_v17 (F := Ideal) x0 x1) = yb
  rfl

/-- The second product at row e, column j. -/
private theorem v24_at (e : Fin 640000) (j : Fin 128) :
    val_main_v24 (F := Ideal) x0 x1 x2 x4 x5 x6 (ix2 e j) = ∑ k : Fin 64, (hidden (cat3 (row (val_main_v10 (F := Ideal) x0 x1) e) (row (val_main_v17 (F := Ideal) x0 x1) e) (row x2 e)) (row x4) (row (rowOf x5) 0)) k * x6 (ix2 k j) := by
  rw [val_main_v24_apply]
  refine Finset.sum_congr rfl fun k _ => ?_
  rw [lidx24, ridx24, v23_at]

/-- The updated edge array at row e, column j. -/
private theorem v28_at (e : Fin 640000) (j : Fin 128) :
    val_main_v28 (F := Ideal) x0 x1 x2 x4 x5 x6 x7 (ix2 e j)
      = mlpRow (row x2 e) (cat3 (row (val_main_v10 (F := Ideal) x0 x1) e) (row (val_main_v17 (F := Ideal) x0 x1) e) (row x2 e)) (row x4) (row (rowOf x5) 0) (row x6) (row (rowOf x7) 0) j := by
  rw [val_main_v28_apply, val_main_v27_apply, v24_at, val_main_v26_apply, val_main_v25_apply, bidx26]
  generalize (val_main_v10 (F := Ideal) x0 x1) = ya
  generalize (val_main_v17 (F := Ideal) x0 x1) = yb
  rfl

/-- The reference's updated edge array `e + MLP [x[row], x[col], e]`. -/
theorem edge_eq :
    val_main_v28 (F := Ideal) x0 x1 x2 x4 x5 x6 x7
      = edgeArr (val_main_v10 (F := Ideal) x0 x1) (val_main_v17 (F := Ideal) x0 x1) x2 x4 (rowOf x5) x6 (rowOf x7) := by
  funext i
  obtain ⟨e, j, rfl⟩ : ∃ (e : Fin 640000) (j : Fin 128), i = ix2 e j := ⟨i 0, i 1, eq_ix2 i⟩
  rw [v28_at]
  generalize (val_main_v10 (F := Ideal) x0 x1) = ya
  generalize (val_main_v17 (F := Ideal) x0 x1) = yb
  rfl

/-! ## The normalisation stages at row e -/

private theorem idx76 (e : Fin 640000) (j : Fin 128) : idx_main_v76 (ix1 e) j = ix2 e j :=
  funext fun a => Fin.ext (by match a with | ⟨0, _⟩ => rfl | ⟨1, _⟩ => rfl)
private theorem idx77 (e : Fin 640000) : idx_main_v77 (ix2 e (0 : Fin 1)) = ix1 e :=
  funext fun a => Fin.ext (by match a with | ⟨0, _⟩ => rfl)
private theorem idx80 (e : Fin 640000) (j : Fin 128) : idx_main_v80 (ix2 e j) = ix2 e (0 : Fin 1) :=
  funext fun a => Fin.ext (by match a with | ⟨0, _⟩ => rfl | ⟨1, _⟩ => rfl)
private theorem idx83 (e : Fin 640000) (j : Fin 128) : idx_main_v83 (ix1 e) j = ix2 e j :=
  funext fun a => Fin.ext (by match a with | ⟨0, _⟩ => rfl | ⟨1, _⟩ => rfl)
private theorem idx84 (e : Fin 640000) : idx_main_v84 (ix2 e (0 : Fin 1)) = ix1 e :=
  funext fun a => Fin.ext (by match a with | ⟨0, _⟩ => rfl)
private theorem idx87 (e : Fin 640000) (j : Fin 128) : idx_main_v87 (ix2 e j) = ix2 e (0 : Fin 1) :=
  funext fun a => Fin.ext (by match a with | ⟨0, _⟩ => rfl | ⟨1, _⟩ => rfl)
private theorem idx92 (e : Fin 640000) (j : Fin 128) : idx_main_v92 (ix2 e j) = ix2 e (0 : Fin 1) :=
  funext fun a => Fin.ext (by match a with | ⟨0, _⟩ => rfl | ⟨1, _⟩ => rfl)
private theorem idx95 (e : Fin 640000) (j : Fin 128) : idx_main_v94 (idx_main_v95 (ix2 e j)) = ix1 j :=
  funext fun a => Fin.ext (by match a with | ⟨0, _⟩ => rfl)
private theorem idx98 (e : Fin 640000) (j : Fin 128) : idx_main_v97 (idx_main_v98 (ix2 e j)) = ix1 j :=
  funext fun a => Fin.ext (by match a with | ⟨0, _⟩ => rfl)

/-- The row sum of the updated edge array. -/
private theorem v76_at (e : Fin 640000) :
    val_main_v76 (F := Ideal) x0 x1 x2 x4 x5 x6 x7 (ix1 e) = ∑ j : Fin 128, (row (val_main_v28 (F := Ideal) x0 x1 x2 x4 x5 x6 x7) e) j := by
  rw [val_main_v76_apply, val_main_cst_11_apply, show (FloatOps.ofBits (F := Ideal) .f32 0x00000000#32) = (0 : EReal) from Ideal.ofBits_zero_f32, zero_add]
  refine Finset.sum_congr rfl fun j _ => ?_
  rw [idx76]
  generalize (val_main_v28 (F := Ideal) x0 x1 x2 x4 x5 x6 x7) = h
  rfl

/-- The row mean. -/
private theorem v79_at (e : Fin 640000) :
    val_main_v79 (F := Ideal) x0 x1 x2 x4 x5 x6 x7 (ix2 e (0 : Fin 1)) = mean128 (row (val_main_v28 (F := Ideal) x0 x1 x2 x4 x5 x6 x7) e) := by
  rw [val_main_v79_apply, val_main_v77_apply, idx77, v76_at, val_main_v78_apply, val_main_cst_12_apply]
  generalize (val_main_v28 (F := Ideal) x0 x1 x2 x4 x5 x6 x7) = h
  rfl

/-- The centred row (first copy, the one that is squared). -/
private theorem v81_at (e : Fin 640000) (j : Fin 128) :
    val_main_v81 (F := Ideal) x0 x1 x2 x4 x5 x6 x7 (ix2 e j) = centred (row (val_main_v28 (F := Ideal) x0 x1 x2 x4 x5 x6 x7) e) j := by
  rw [val_main_v81_apply, val_main_v80_apply, idx80, v79_at]
  generalize (val_main_v28 (F := Ideal) x0 x1 x2 x4 x5 x6 x7) = h
  rfl

/-- The row sum of squares of the centred row. -/
private theorem v83_at (e : Fin 640000) :
    val_main_v83 (F := Ideal) x0 x1 x2 x4 x5 x6 x7 (ix1 e) = ∑ j : Fin 128, centred (row (val_main_v28 (F := Ideal) x0 x1 x2 x4 x5 x6 x7) e) j * centred (row (val_main_v28 (F := Ideal) x0 x1 x2 x4 x5 x6 x7) e) j := by
  rw [val_main_v83_apply, val_main_cst_13_apply, show (FloatOps.ofBits (F := Ideal) .f32 0x00000000#32) = (0 : EReal) from Ideal.ofBits_zero_f32, zero_add]
  refine Finset.sum_congr rfl fun j _ => ?_
  rw [idx83, val_main_v82_apply, v81_at]
  generalize (val_main_v28 (F := Ideal) x0 x1 x2 x4 x5 x6 x7) = h
  rfl

/-- The row variance. -/
private theorem v86_at (e : Fin 640000) :
    val_main_v86 (F := Ideal) x0 x1 x2 x4 x5 x6 x7 (ix2 e (0 : Fin 1)) = var128 (row (val_main_v28 (F := Ideal) x0 x1 x2 x4 x5 x6 x7) e) := by
  rw [val_main_v86_apply, val_main_v84_apply, idx84, v83_at, val_main_v85_apply, val_main_cst_14_apply]
  generalize (val_main_v28 (F := Ideal) x0 x1 x2 x4 x5 x6 x7) = h
  rfl

/-- The centred row (second copy, the one that is scaled). -/
private theorem v88_at (e : Fin 640000) (j : Fin 128) :
    val_main_v88 (F := Ideal) x0 x1 x2 x4 x5 x6 x7 (ix2 e j) = centred (row (val_main_v28 (F := Ideal) x0 x1 x2 x4 x5 x6 x7) e) j := by
  rw [val_main_v88_apply, val_main_v87_apply, idx87, v79_at]
  generalize (val_main_v28 (F := Ideal) x0 x1 x2 x4 x5 x6 x7) = h
  rfl

/-- The reciprocal square root of the variance plus ε. -/
private theorem v91_at (e : Fin 640000) :
    val_main_v91 (F := Ideal) x0 x1 x2 x4 x5 x6 x7 (ix2 e (0 : Fin 1))
      = Ideal.rsqrt (var128 (row (val_main_v28 (F := Ideal) x0 x1 x2 x4 x5 x6 x7) e) + Ideal.ofBits .f32 0x3727C5AC#32) := by
  rw [val_main_v91_apply, val_main_v90_apply, v86_at, val_main_v89_apply, val_main_cst_15_apply]
  generalize (val_main_v28 (F := Ideal) x0 x1 x2 x4 x5 x6 x7) = h
  rfl

/-- The normalised array at row e, column j. -/
private theorem v99_at (e : Fin 640000) (j : Fin 128) :
    val_main_v99 (F := Ideal) x0 x1 x2 x4 x5 x6 x7 x14 x15 (ix2 e j) = lnRow (row (val_main_v28 (F := Ideal) x0 x1 x2 x4 x5 x6 x7) e) (row (rowOf x14) 0) (row (rowOf x15) 0) j := by
  rw [val_main_v99_apply, val_main_v96_apply, val_main_v93_apply, v88_at, val_main_v92_apply, idx92, v91_at,
    val_main_v95_apply, val_main_v94_apply, idx95, val_main_v98_apply, val_main_v97_apply, idx98]
  generalize (val_main_v28 (F := Ideal) x0 x1 x2 x4 x5 x6 x7) = h
  rfl

/-- The reference's second result: the layer normalisation of the updated edge array. -/
theorem edge_norm_eq :
    val_main_v99 (F := Ideal) x0 x1 x2 x4 x5 x6 x7 x14 x15
      = lnArr (val_main_v28 (F := Ideal) x0 x1 x2 x4 x5 x6 x7) (rowOf x14) (rowOf x15) := by
  funext i
  obtain ⟨e, j, rfl⟩ : ∃ (e : Fin 640000) (j : Fin 128), i = ix2 e j := ⟨i 0, i 1, eq_ix2 i⟩
  rw [v99_at]
  generalize (val_main_v28 (F := Ideal) x0 x1 x2 x4 x5 x6 x7) = h
  rfl

end Cert.ReferenceIdeal.EdgeStages

end
-- ==== Proof.RefNode.lean ====
/-
  The reference's node stages as whole-array row functions: the updated node array is the residual perceptron of rows
  of the node array and the aggregated edge array, and the first result is its layer normalisation.
-/
import proofs.«414419_j60069412602312_1_alg».proof.Proof.Gen.ReferenceIdeal.Read
import proofs.«414419_j60069412602312_1_alg».proof.Proof.RowSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.ReferenceIdeal.NodeStages

open Cert.ReferenceIdeal Cert.ReferenceIdeal.Gen Cert.ReferenceIdeal.Read Cert.RowSpec ValueIdx

/-- Two arrays of 128 columns joined along the columns: row `n` of the result is the two rows laid side by side. -/
private theorem cat_at (a b : A2 100000 128) (n : Fin 100000) (l : Fin 256) :
    concatenate S100000x256 1 [⟨S100000x128, a⟩, ⟨S100000x128, b⟩] concatenates_S100000x128_S100000x128_S100000x256_d1 (ix2 n l)
      = cat2 (row a n) (row b n) l := by
  unfold cat2
  by_cases h : l.val < 128
  · rw [dif_pos h]
    exact concatenate_pair_apply_left (t := S100000x256) (s₁ := S100000x128) (s₂ := S100000x128) 1 a b
      concatenates_S100000x128_S100000x128_S100000x256_d1 (ix2 n l) rfl (ix2 n ⟨l.val, h⟩)
      (fun c => match c with | ⟨0, _⟩ => rfl | ⟨1, _⟩ => rfl)
  · rw [dif_neg h]
    exact concatenate_pair_apply_right (t := S100000x256) (s₁ := S100000x128) (s₂ := S100000x128) 1 a b
      concatenates_S100000x128_S100000x128_S100000x256_d1 (ix2 n l) rfl rfl (ix2 n ⟨l.val - 128, by omega⟩)
      (fun c => match c with | ⟨0, _⟩ => fun _ => rfl | ⟨1, _⟩ => fun hc => absurd rfl hc)
      (by show (l.val - 128) + 128 = l.val; omega)

variable (x0 : (⟨S100000x128, .f32⟩ : BufTy).Contents (Elt Ideal)) (x1 : (⟨S2x640000, .i32⟩ : BufTy).Contents (Elt Ideal)) (x2 : (⟨S640000x128, .f32⟩ : BufTy).Contents (Elt Ideal))
  (x4 : (⟨S384x64, .f32⟩ : BufTy).Contents (Elt Ideal)) (x5 : (⟨S64, .f32⟩ : BufTy).Contents (Elt Ideal)) (x6 : (⟨S64x128, .f32⟩ : BufTy).Contents (Elt Ideal)) (x7 : (⟨S128, .f32⟩ : BufTy).Contents (Elt Ideal))
  (x8 : (⟨S256x64, .f32⟩ : BufTy).Contents (Elt Ideal)) (x9 : (⟨S64, .f32⟩ : BufTy).Contents (Elt Ideal)) (x10 : (⟨S64x128, .f32⟩ : BufTy).Contents (Elt Ideal)) (x11 x12 x13 x14 x15 : (⟨S128, .f32⟩ : BufTy).Contents (Elt Ideal))

/-- Row `n` of the joined array is the node row and the aggregated row side by side. -/
private theorem joined_at (n : Fin 100000) (l : Fin 256) :
    val_main_v41 (F := Ideal) x0 x1 x2 x4 x5 x6 x7 (ix2 n l)
      = cat2 (row x0 n) (row (val_main_v40 (F := Ideal) x0 x1 x2 x4 x5 x6 x7) n) l := by
  unfold val_main_v41
  generalize val_main_v40 (F := Ideal) x0 x1 x2 x4 x5 x6 x7 = y
  exact cat_at x0 y n l

/-- The first bias, broadcast over the rows, read at an entry. -/
private theorem bias1_at (n : Fin 100000) (k : Fin 64) :
    val_main_v44 (F := Ideal) x9 (ix2 n k) = row (rowOf x9) 0 k := by
  rw [val_main_v44_apply, val_main_v43_apply]
  exact congrArg x9 (funext fun c => Fin.ext (by match c with | ⟨0, _⟩ => rfl))

/-- The second bias, broadcast over the rows, read at an entry. -/
private theorem bias2_at (n : Fin 100000) (j : Fin 128) :
    val_main_v49 (F := Ideal) x11 (ix2 n j) = row (rowOf x11) 0 j := by
  rw [val_main_v49_apply, val_main_v48_apply]
  exact congrArg x11 (funext fun c => Fin.ext (by match c with | ⟨0, _⟩ => rfl))

/-- Hidden unit `k` of row `n`. -/
private theorem hidden_at (n : Fin 100000) (k : Fin 64) :
    val_main_v46 (F := Ideal) x0 x1 x2 x4 x5 x6 x7 x8 x9 (ix2 n k)
      = hidden (cat2 (row x0 n) (row (val_main_v40 (F := Ideal) x0 x1 x2 x4 x5 x6 x7) n)) (row x8) (row (rowOf x9) 0) k := by
  have el : ∀ l : Fin 256, lidx_main_v42 (ix2 n k) l = ix2 n l := fun l =>
    funext fun c => Fin.ext (by match c with | ⟨0, _⟩ => rfl | ⟨1, _⟩ => rfl)
  have er : ∀ l : Fin 256, ridx_main_v42 (ix2 n k) l = ix2 l k := fun l =>
    funext fun c => Fin.ext (by match c with | ⟨0, _⟩ => rfl | ⟨1, _⟩ => rfl)
  rw [val_main_v46_apply, val_main_v45_apply, val_main_v42_apply, bias1_at, val_main_call1_v0_apply,
    val_main_call1_cst_apply, Ideal.maximumf_def, Ideal.addf_def, Ideal.ofBits_def]
  unfold Cert.RowSpec.hidden
  congr 2
  refine Finset.sum_congr rfl fun l _ => ?_
  rw [el, er, joined_at]
  rfl

/-- The perceptron's output entry `j` of row `n`, before the residual is added. -/
private theorem out_at (n : Fin 100000) (j : Fin 128) :
    val_main_v50 (F := Ideal) x0 x1 x2 x4 x5 x6 x7 x8 x9 x10 x11 (ix2 n j)
      = (∑ k : Fin 64, hidden (cat2 (row x0 n) (row (val_main_v40 (F := Ideal) x0 x1 x2 x4 x5 x6 x7) n)) (row x8) (row (rowOf x9) 0) k
            * row x10 k j) + row (rowOf x11) 0 j := by
  have el : ∀ k : Fin 64, lidx_main_v47 (ix2 n j) k = ix2 n k := fun k =>
    funext fun c => Fin.ext (by match c with | ⟨0, _⟩ => rfl | ⟨1, _⟩ => rfl)
  have er : ∀ k : Fin 64, ridx_main_v47 (ix2 n j) k = ix2 k j := fun k =>
    funext fun c => Fin.ext (by match c with | ⟨0, _⟩ => rfl | ⟨1, _⟩ => rfl)
  rw [val_main_v50_apply, val_main_v47_apply, bias2_at, Ideal.addf_def]
  congr 1
  refine Finset.sum_congr rfl fun k _ => ?_
  rw [el, er, hidden_at]
  rfl

/-- The reference's updated node array `x + MLP [x, agg]`. -/
theorem node_eq :
    val_main_v51 (F := Ideal) x0 x1 x2 x4 x5 x6 x7 x8 x9 x10 x11
      = nodeArr x0 (val_main_v40 (F := Ideal) x0 x1 x2 x4 x5 x6 x7) x8 (rowOf x9) x10 (rowOf x11) := by
  funext i
  obtain ⟨n, j, rfl⟩ : ∃ (n : Fin 100000) (j : Fin 128), i = ix2 n j := ⟨i 0, i 1, eq_ix2 i⟩
  rw [val_main_v51_apply, out_at, Ideal.addf_def]
  rfl

/-- The mean of row `n` of the updated node array. -/
private theorem mean_at (n : Fin 100000) :
    val_main_v55 (F := Ideal) x0 x1 x2 x4 x5 x6 x7 x8 x9 x10 x11 (ix2 n (0 : Fin 1)) = mean128 (row (val_main_v51 (F := Ideal) x0 x1 x2 x4 x5 x6 x7 x8 x9 x10 x11) n) := by
  have e : ∀ k : Fin 128, idx_main_v52 (idx_main_v53 (ix2 n (0 : Fin 1))) k = ix2 n k := fun k =>
    funext fun c => Fin.ext (by match c with | ⟨0, _⟩ => rfl | ⟨1, _⟩ => rfl)
  rw [val_main_v55_apply, val_main_v53_apply, val_main_v52_apply, val_main_v54_apply, val_main_cst_7_apply,
    val_main_cst_6_apply, Ideal.hostDivf_def, Ideal.ofBits_def, Ideal.ofBits_def, Ideal.ofBits_zero_f32, zero_add]
  unfold mean128
  congr 1
  refine Finset.sum_congr rfl fun k _ => ?_
  rw [e]
  rfl

/-- Entry `j` of row `n` minus the row's mean (as the variance reads it). -/
private theorem centred_at (n : Fin 100000) (j : Fin 128) :
    val_main_v57 (F := Ideal) x0 x1 x2 x4 x5 x6 x7 x8 x9 x10 x11 (ix2 n j) = centred (row (val_main_v51 (F := Ideal) x0 x1 x2 x4 x5 x6 x7 x8 x9 x10 x11) n) j := by
  have e : idx_main_v56 (ix2 n j) = ix2 n (0 : Fin 1) := funext fun c => Fin.ext (by match c with | ⟨0, _⟩ => rfl | ⟨1, _⟩ => rfl)
  rw [val_main_v57_apply, val_main_v56_apply, e, mean_at, Ideal.subf_def]
  rfl

/-- Entry `j` of row `n` minus the row's mean (as the normalisation reads it). -/
private theorem centred_at' (n : Fin 100000) (j : Fin 128) :
    val_main_v64 (F := Ideal) x0 x1 x2 x4 x5 x6 x7 x8 x9 x10 x11 (ix2 n j) = centred (row (val_main_v51 (F := Ideal) x0 x1 x2 x4 x5 x6 x7 x8 x9 x10 x11) n) j := by
  have e : idx_main_v63 (ix2 n j) = ix2 n (0 : Fin 1) := funext fun c => Fin.ext (by match c with | ⟨0, _⟩ => rfl | ⟨1, _⟩ => rfl)
  rw [val_main_v64_apply, val_main_v63_apply, e, mean_at, Ideal.subf_def]
  rfl

/-- The variance of row `n`. -/
private theorem var_at (n : Fin 100000) :
    val_main_v62 (F := Ideal) x0 x1 x2 x4 x5 x6 x7 x8 x9 x10 x11 (ix2 n (0 : Fin 1)) = var128 (row (val_main_v51 (F := Ideal) x0 x1 x2 x4 x5 x6 x7 x8 x9 x10 x11) n) := by
  have e : ∀ k : Fin 128, idx_main_v59 (idx_main_v60 (ix2 n (0 : Fin 1))) k = ix2 n k := fun k =>
    funext fun c => Fin.ext (by match c with | ⟨0, _⟩ => rfl | ⟨1, _⟩ => rfl)
  rw [val_main_v62_apply, val_main_v60_apply, val_main_v59_apply, val_main_v61_apply, val_main_cst_9_apply,
    val_main_cst_8_apply, Ideal.hostDivf_def, Ideal.ofBits_def, Ideal.ofBits_def, Ideal.ofBits_zero_f32, zero_add]
  unfold var128 mean128
  congr 1
  refine Finset.sum_congr rfl fun k _ => ?_
  rw [e, val_main_v58_apply, centred_at, Ideal.mulf_def]

/-- The reciprocal square root of the variance of row `n` plus ε. -/
private theorem rstd_at (n : Fin 100000) :
    val_main_v67 (F := Ideal) x0 x1 x2 x4 x5 x6 x7 x8 x9 x10 x11 (ix2 n (0 : Fin 1))
      = Ideal.rsqrt (var128 (row (val_main_v51 (F := Ideal) x0 x1 x2 x4 x5 x6 x7 x8 x9 x10 x11) n) + Ideal.ofBits .f32 0x3727C5AC#32) := by
  rw [val_main_v67_apply, val_main_v66_apply, var_at, val_main_v65_apply, val_main_cst_10_apply,
    Ideal.hostUnary_rsqrt_def, Ideal.addf_def, Ideal.ofBits_def]

/-- The scale, broadcast over the rows, read at an entry. -/
private theorem scale_at (n : Fin 100000) (j : Fin 128) :
    val_main_v71 (F := Ideal) x12 (ix2 n j) = row (rowOf x12) 0 j := by
  rw [val_main_v71_apply, val_main_v70_apply]
  exact congrArg x12 (funext fun c => Fin.ext (by match c with | ⟨0, _⟩ => rfl))

/-- The shift, broadcast over the rows, read at an entry. -/
private theorem shift_at (n : Fin 100000) (j : Fin 128) :
    val_main_v74 (F := Ideal) x13 (ix2 n j) = row (rowOf x13) 0 j := by
  rw [val_main_v74_apply, val_main_v73_apply]
  exact congrArg x13 (funext fun c => Fin.ext (by match c with | ⟨0, _⟩ => rfl))

/-- The reference's first result: the layer normalisation of the updated node array. -/
theorem node_norm_eq :
    val_main_v75 (F := Ideal) x0 x1 x2 x4 x5 x6 x7 x8 x9 x10 x11 x12 x13
      = lnArr (val_main_v51 (F := Ideal) x0 x1 x2 x4 x5 x6 x7 x8 x9 x10 x11) (rowOf x12) (rowOf x13) := by
  funext i
  obtain ⟨n, j, rfl⟩ : ∃ (n : Fin 100000) (j : Fin 128), i = ix2 n j := ⟨i 0, i 1, eq_ix2 i⟩
  have e : idx_main_v68 (ix2 n j) = ix2 n (0 : Fin 1) := funext fun c => Fin.ext (by match c with | ⟨0, _⟩ => rfl | ⟨1, _⟩ => rfl)
  rw [val_main_v75_apply, val_main_v72_apply, val_main_v69_apply, val_main_v68_apply, e, rstd_at, centred_at',
    scale_at, shift_at, Ideal.addf_def, Ideal.mulf_def, Ideal.mulf_def]
  rfl

end Cert.ReferenceIdeal.NodeStages

end
-- ==== Proof.HostEdge.lean ====
/-
  What the edge region finds in its nine input arrays: the host operations before it, read back. The two gathered
  node arrays are `jnp.take`'s result, which for indices in range is the plain gather the reference performs; the
  biases are the one-dimensional arguments laid out as one row; the rest are the arguments themselves.
-/
import proofs.«414419_j60069412602312_1_alg».proof.Proof.Gen.KernelIdeal.Frame
import proofs.«414419_j60069412602312_1_alg».proof.Proof.Gen.ReferenceIdeal.Read
import proofs.«414419_j60069412602312_1_alg».proof.Proof.RowSpec
import proofs.«414419_j60069412602312_1_alg».proof.Proof.IndexRange
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.Lib.ReduceAll

set_option maxRecDepth 16384

noncomputable section

open Idealize.ShloMosaic Idealize.ShloMosaic.TcCoe Idealize.SL.Sem
open Idealize.ShloMosaic.Pipeline (Dat)

namespace Cert.KernelIdeal.HostEdge

open Cert.KernelIdeal Cert.KernelIdeal.Gen Cert.RowSpec

variable (m : (ℓ : Loc nD τ sig) → Buf (Elt Ideal) ℓ) (ρ : Dev nD → PrngReg)

/-! ## Words -/

/-- A word in `[0, 100000)`, read signed. -/
theorem word_range {a : BitVec 32} (h : IntOp.cmpi .sge a 0#32 = 1#1 ∧ IntOp.cmpi .slt a 100000#32 = 1#1) :
    0 ≤ a.toInt ∧ a.toInt < 100000 := by
  obtain ⟨h0, h1⟩ := h
  rw [IntOp.cmpi_sge] at h0
  rw [IntOp.cmpi_slt] at h1
  have e0 : (0#32).toInt = 0 := by decide
  have e1 : (100000#32).toInt = 100000 := by decide
  rw [e0] at h0; rw [e1] at h1
  exact ⟨h0, h1⟩

/-- A non-negative word is not wrapped. -/
theorem wrap_eq {a : BitVec 32} (h : 0 ≤ a.toInt) :
    Scalar.select (IntOp.cmpi .slt a 0#32) (IntOp.addi a 100000#32) a = a := by
  have hn : ¬ IntOp.cmpi .slt a 0#32 = 1#1 := by
    rw [IntOp.cmpi_slt]
    have e0 : (0#32).toInt = 0 := by decide
    rw [e0]; omega
  unfold Scalar.select
  split
  · next hc => exact absurd hc hn
  · rfl

/-- A word in `[0, 100000)` passes both bounds checks. -/
theorem mask_word {a : BitVec 32} (h : 0 ≤ a.toInt ∧ a.toInt < 100000) :
    IntOp.andi (IntOp.cmpi .sge a 0#32) (IntOp.cmpi .sle a 99999#32) = 1#1 := by
  rw [IntOp.andi_eq_one, IntOp.cmpi_sge, IntOp.cmpi_sle]
  have e0 : (0#32).toInt = 0 := by decide
  have e1 : (99999#32).toInt = 99999 := by decide
  rw [e0, e1]; omega

theorem select_one {α : Type} (a b : α) : Scalar.select 1#1 a b = a := if_pos rfl

/-- A conjunction of ones, from one, is one. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    have e : IntOp.andi 1#1 1#1 = 1#1 := by decide
    rw [e]
    exact foldl_andi_one f hf l

/-- What holds of every entry of an array holds of every entry of a broadcast of it. -/
theorem bcast_forall {α : Type} {s t : Shape} {dims : Fin s.rank → Fin t.rank} (h : s.BroadcastsInDim t dims)
    (x : s.Idx → α) (P : α → Prop) (hx : ∀ k, P (x k)) (j : t.Idx) : P (broadcastInDim t dims h x j) := hx _

/-- A select whose mask is all ones is its first branch. -/
theorem select_of_ones {s : Shape} {α : Type} (c : IVec s 1) (a b : s.Idx → α) (hc : ∀ j, c j = 1#1) :
    select c a b = a := by
  funext j
  show Scalar.select (c j) (a j) (b j) = a j
  rw [hc j]
  exact select_one _ _

/-- The index column of a take: negative entries wrapped by the table length, laid out as one column. -/
def wrapCol (idx : (⟨S640000, .i32⟩ : BufTy).Contents (Elt Ideal)) : (⟨S640000x1, .i32⟩ : BufTy).Contents (Elt Ideal) :=
  broadcastInDim S640000x1 ![0] bcast_S640000_S640000x1_0
    (select (cmpi .slt idx (broadcastInDim S640000 ![] bcast_S_S640000 (constantI S_ 32 0#32)))
      (addi idx (broadcastInDim S640000 ![] bcast_S_S640000 (constantI S_ 32 100000#32))) idx)

/-- The take's mask: row by row, whether the wrapped index lies in the table. -/
def inMask (w : (⟨S640000x1, .i32⟩ : BufTy).Contents (Elt Ideal)) : (⟨S640000, .i1⟩ : BufTy).Contents (Elt Ideal) :=
  Host.reduce IntOp.andi
    (andi (cmpi .sge w (broadcastInDim S640000x1 ![] bcast_S_S640000x1 (constantI S_ 32 0#32)))
      (cmpi .sle w (broadcastInDim S640000x1 ![0, 1] bcast_S1x1_S640000x1_0_1
        (broadcastInDim S1x1 ![1] bcast_S1_S1x1_1 (constantI S1 32 99999#32)))))
    (constantI S_ 1 1#1) reducesTo_S640000x1_S640000_d1 h_S_

/-- The take as the kernel program performs it: the gather where the mask holds, the NaN word elsewhere. -/
def takeTerm (x : (⟨S100000x128, .f32⟩ : BufTy).Contents (Elt Ideal)) (idx : (⟨S640000, .i32⟩ : BufTy).Contents (Elt Ideal)) :
    (⟨S640000x128, .f32⟩ : BufTy).Contents (Elt Ideal) :=
  select (broadcastInDim S640000x128 ![0] bcast_S640000_S640000x128_0 (inMask (wrapCol idx)))
    (Host.gather gather_S100000x128_S640000x1_S640000x128_1_0_n_n_0_1_1128 x (wrapCol idx))
    (broadcastInDim S640000x128 ![] bcast_S_S640000x128 (constant (F := Ideal) S_ .f32 0x7FC00000#32))

theorem wrapCol_range (idx : (⟨S640000, .i32⟩ : BufTy).Contents (Elt Ideal))
    (hidx : ∀ k, 0 ≤ (idx k).toInt ∧ (idx k).toInt < 100000) (i : S640000x1.Idx) :
    0 ≤ (wrapCol idx i).toInt ∧ (wrapCol idx i).toInt < 100000 :=
  bcast_forall _ _ (fun a : BitVec 32 => 0 ≤ a.toInt ∧ a.toInt < 100000) (fun k => by
    show 0 ≤ (Scalar.select (IntOp.cmpi .slt (idx k) 0#32) (IntOp.addi (idx k) 100000#32) (idx k)).toInt ∧
      (Scalar.select (IntOp.cmpi .slt (idx k) 0#32) (IntOp.addi (idx k) 100000#32) (idx k)).toInt < 100000
    rw [wrap_eq (hidx k).1]; exact hidx k) i

theorem inMask_one (w : (⟨S640000x1, .i32⟩ : BufTy).Contents (Elt Ideal))
    (hw : ∀ i, 0 ≤ (w i).toInt ∧ (w i).toInt < 100000) (k : S640000.Idx) : inMask w k = 1#1 := by
  unfold inMask
  rw [Host.reduce_eq_foldl]
  exact foldl_andi_one _ (fun i => mask_word (hw i)) _

/-- With every index in range the take is the plain gather at the index column. -/
theorem takeTerm_eq (x : (⟨S100000x128, .f32⟩ : BufTy).Contents (Elt Ideal)) (idx : (⟨S640000, .i32⟩ : BufTy).Contents (Elt Ideal))
    (hidx : ∀ k, 0 ≤ (idx k).toInt ∧ (idx k).toInt < 100000) :
    takeTerm x idx = Host.gather gather_S100000x128_S640000x1_S640000x128_1_0_n_n_0_1_1128 x (wrapCol idx) := by
  unfold takeTerm
  exact select_of_ones _ _ _ fun j => bcast_forall _ _ (· = 1#1) (inMask_one _ (wrapCol_range idx hidx)) j

/-! ## The host operations, read back -/

theorem v4_of (V : Valuation τ sig (Elt Ideal)) :
    StableHlo.after hostOps0_1 V (Proc.devRef .tc main_v4)
      = takeTerm (V (Proc.devRef .tc main_arg0)) (V (Proc.devRef .tc main_v1)) := by
  after_results_simp
  simp only [StableHlo.TRef.ofBuf, StableHlo.TRef.toBuf, cast_eq]
  unfold takeTerm inMask wrapCol
  rfl

theorem v5_of (V : Valuation τ sig (Elt Ideal)) :
    StableHlo.after hostOps0_2 V (Proc.devRef .tc main_v5)
      = takeTerm (V (Proc.devRef .tc main_arg0)) (V (Proc.devRef .tc main_v3)) := by
  after_results_simp
  simp only [StableHlo.TRef.ofBuf, StableHlo.TRef.toBuf, cast_eq]
  unfold takeTerm inMask wrapCol
  rfl

theorem v1_of (V : Valuation τ sig (Elt Ideal)) :
    StableHlo.after hostOps0 V (Proc.devRef .tc main_v1)
      = Cert.ReferenceIdeal.Read.val_main_v1 (F := Ideal) (V (Proc.devRef .tc main_arg1)) := by
  after_results
  rfl

theorem v3_of (V : Valuation τ sig (Elt Ideal)) :
    StableHlo.after hostOps0 V (Proc.devRef .tc main_v3)
      = Cert.ReferenceIdeal.Read.val_main_v3 (F := Ideal) (V (Proc.devRef .tc main_arg1)) := by
  after_results
  rfl

theorem idx0_range (x1 : (⟨S2x640000, .i32⟩ : BufTy).Contents (Elt Ideal)) (h : InRange x1) (k : S640000.Idx) :
    0 ≤ (Cert.ReferenceIdeal.Read.val_main_v1 (F := Ideal) x1 k).toInt ∧ (Cert.ReferenceIdeal.Read.val_main_v1 (F := Ideal) x1 k).toInt < 100000 := by
  rw [Cert.ReferenceIdeal.Read.val_main_v1_apply, Cert.ReferenceIdeal.Read.val_main_v0_apply]
  exact word_range (h _)

theorem idx1_range (x1 : (⟨S2x640000, .i32⟩ : BufTy).Contents (Elt Ideal)) (h : InRange x1) (k : S640000.Idx) :
    0 ≤ (Cert.ReferenceIdeal.Read.val_main_v3 (F := Ideal) x1 k).toInt ∧ (Cert.ReferenceIdeal.Read.val_main_v3 (F := Ideal) x1 k).toInt < 100000 := by
  rw [Cert.ReferenceIdeal.Read.val_main_v3_apply, Cert.ReferenceIdeal.Read.val_main_v2_apply]
  exact word_range (h _)

theorem cast_row {C : Nat} (x : A1 C) (h : (⟨1, ![C]⟩ : Shape).ShapeCasts ⟨2, ![1, C]⟩) :
    shapeCast ⟨2, ![1, C]⟩ x h = rowOf x := by
  funext i
  have h0 : (i 0).val = 0 := by
    have : (i 0).val < 1 := (i 0).isLt
    omega
  refine shapeCast_apply x h i (ValueIdx.ix1 (i 1)) ?_
  rw [Shape.rowMajor_val_one, Shape.rowMajor_val_two]
  show (i 1).val = (i 0).val * C + (i 1).val
  rw [h0]; omega

theorem v6_of (V : Valuation τ sig (Elt Ideal)) :
    StableHlo.after hostOps0_3 V (Proc.devRef .tc main_v6) = shapeCast _ (V (Proc.devRef .tc main_arg5)) shapeCasts_S64_S1x64 := by
  after_results
  rfl

theorem v7_of (V : Valuation τ sig (Elt Ideal)) :
    StableHlo.after hostOps0_3 V (Proc.devRef .tc main_v7) = shapeCast _ (V (Proc.devRef .tc main_arg7)) shapeCasts_S128_S1x128 := by
  after_results
  rfl

theorem v8_of (V : Valuation τ sig (Elt Ideal)) :
    StableHlo.after hostOps0_3 V (Proc.devRef .tc main_v8) = shapeCast _ (V (Proc.devRef .tc main_arg14)) shapeCasts_S128_S1x128 := by
  after_results
  rfl

theorem v9_of (V : Valuation τ sig (Elt Ideal)) :
    StableHlo.after hostOps0_3 V (Proc.devRef .tc main_v9) = shapeCast _ (V (Proc.devRef .tc main_arg15)) shapeCasts_S128_S1x128 := by
  after_results
  rfl

/-! ## What the first region finds -/

/-- `x[row]`: the kernel's `jnp.take` of the node array at the first index row is the reference's gather. -/
theorem V4_main_v4 (c : Dev nD) (h : InRange (m ((c : Thread nD τ).loc main_arg1))) :
    V4 m ρ c main_v4 = Cert.ReferenceIdeal.Read.val_main_v10 (F := Ideal) (m ((c : Thread nD τ).loc main_arg0)) (m ((c : Thread nD τ).loc main_arg1)) := by
  have eA : W1 m ρ c (Proc.devRef .tc main_arg0) = m ((c : Thread nD τ).loc main_arg0) :=
    calc W1 m ρ c (Proc.devRef .tc main_arg0)
      _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = m ((c : Thread nD τ).loc main_arg0) := rfl
  have eI : W1 m ρ c (Proc.devRef .tc main_v1)
      = Cert.ReferenceIdeal.Read.val_main_v1 (F := Ideal) (m ((c : Thread nD τ).loc main_arg1)) := v1_of (W0 m ρ c)
  have e : V4 m ρ c main_v4
      = takeTerm (m ((c : Thread nD τ).loc main_arg0)) (Cert.ReferenceIdeal.Read.val_main_v1 (F := Ideal) (m ((c : Thread nD τ).loc main_arg1))) :=
    calc W4 m ρ c (Proc.devRef .tc main_v4)
      _ = W3 m ρ c (Proc.devRef .tc main_v4) := StableHlo.after_of_forall_not_mem (b := Proc.devRef .tc main_v4) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W2 m ρ c (Proc.devRef .tc main_v4) := StableHlo.after_of_forall_not_mem (b := Proc.devRef .tc main_v4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = takeTerm (W1 m ρ c (Proc.devRef .tc main_arg0)) (W1 m ρ c (Proc.devRef .tc main_v1)) := v4_of (W1 m ρ c)
      _ = _ := by rw [eA, eI]
  rw [e, takeTerm_eq _ _ (idx0_range _ h)]
  rfl

/-- `x[col]`: the same at the second index row. -/
theorem V4_main_v5 (c : Dev nD) (h : InRange (m ((c : Thread nD τ).loc main_arg1))) :
    V4 m ρ c main_v5 = Cert.ReferenceIdeal.Read.val_main_v17 (F := Ideal) (m ((c : Thread nD τ).loc main_arg0)) (m ((c : Thread nD τ).loc main_arg1)) := by
  have eA : W2 m ρ c (Proc.devRef .tc main_arg0) = m ((c : Thread nD τ).loc main_arg0) :=
    calc W2 m ρ c (Proc.devRef .tc main_arg0)
      _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = m ((c : Thread nD τ).loc main_arg0) := rfl
  have eI : W2 m ρ c (Proc.devRef .tc main_v3)
      = Cert.ReferenceIdeal.Read.val_main_v3 (F := Ideal) (m ((c : Thread nD τ).loc main_arg1)) :=
    calc W2 m ρ c (Proc.devRef .tc main_v3)
      _ = W1 m ρ c (Proc.devRef .tc main_v3) := StableHlo.after_of_forall_not_mem (b := Proc.devRef .tc main_v3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = _ := v3_of (W0 m ρ c)
  have e : V4 m ρ c main_v5
      = takeTerm (m ((c : Thread nD τ).loc main_arg0)) (Cert.ReferenceIdeal.Read.val_main_v3 (F := Ideal) (m ((c : Thread nD τ).loc main_arg1))) :=
    calc W4 m ρ c (Proc.devRef .tc main_v5)
      _ = W3 m ρ c (Proc.devRef .tc main_v5) := StableHlo.after_of_forall_not_mem (b := Proc.devRef .tc main_v5) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = takeTerm (W2 m ρ c (Proc.devRef .tc main_arg0)) (W2 m ρ c (Proc.devRef .tc main_v3)) := v5_of (W2 m ρ c)
      _ = _ := by rw [eA, eI]
  rw [e, takeTerm_eq _ _ (idx1_range _ h)]
  rfl

theorem V4_main_arg2 (c : Dev nD) : V4 m ρ c main_arg2 = (m ((c : Thread nD τ).loc main_arg2)) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem V4_main_arg4 (c : Dev nD) : V4 m ρ c main_arg4 = (m ((c : Thread nD τ).loc main_arg4)) :=
  calc W4 m ρ c (Proc.devRef .tc main_arg4)
    _ = W3 m ρ c (Proc.devRef .tc main_arg4) := StableHlo.after_of_forall_not_mem (b := Proc.devRef .tc main_arg4) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem V4_main_arg6 (c : Dev nD) : V4 m ρ c main_arg6 = (m ((c : Thread nD τ).loc main_arg6)) :=
  calc W4 m ρ c (Proc.devRef .tc main_arg6)
    _ = W3 m ρ c (Proc.devRef .tc main_arg6) := StableHlo.after_of_forall_not_mem (b := Proc.devRef .tc main_arg6) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- The first bias, reshaped to one row. -/
theorem V4_main_v6 (c : Dev nD) : V4 m ρ c main_v6 = rowOf (m ((c : Thread nD τ).loc main_arg5)) := by
  have eA : W3 m ρ c (Proc.devRef .tc main_arg5) = m ((c : Thread nD τ).loc main_arg5) :=
    calc W3 m ρ c (Proc.devRef .tc main_arg5)
      _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = m ((c : Thread nD τ).loc main_arg5) := rfl
  have e : V4 m ρ c main_v6 = shapeCast _ (W3 m ρ c (Proc.devRef .tc main_arg5)) shapeCasts_S64_S1x64 := v6_of (W3 m ρ c)
  rw [e, eA]
  exact cast_row _ _

/-- The second bias, reshaped to one row. -/
theorem V4_main_v7 (c : Dev nD) : V4 m ρ c main_v7 = rowOf (m ((c : Thread nD τ).loc main_arg7)) := by
  have eA : W3 m ρ c (Proc.devRef .tc main_arg7) = m ((c : Thread nD τ).loc main_arg7) :=
    calc W3 m ρ c (Proc.devRef .tc main_arg7)
      _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = m ((c : Thread nD τ).loc main_arg7) := rfl
  have e : V4 m ρ c main_v7 = shapeCast _ (W3 m ρ c (Proc.devRef .tc main_arg7)) shapeCasts_S128_S1x128 := v7_of (W3 m ρ c)
  rw [e, eA]
  exact cast_row _ _

/-- The edge normalisation's scale, reshaped to one row. -/
theorem V4_main_v8 (c : Dev nD) : V4 m ρ c main_v8 = rowOf (m ((c : Thread nD τ).loc main_arg14)) := by
  have eA : W3 m ρ c (Proc.devRef .tc main_arg14) = m ((c : Thread nD τ).loc main_arg14) :=
    calc W3 m ρ c (Proc.devRef .tc main_arg14)
      _ = W2 m ρ c (Proc.devRef .tc main_arg14) := StableHlo.after_of_forall_not_mem (b := Proc.devRef .tc main_arg14) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W1 m ρ c (Proc.devRef .tc main_arg14) := StableHlo.after_of_forall_not_mem (b := Proc.devRef .tc main_arg14) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = m ((c : Thread nD τ).loc main_arg14) := rfl
  have e : V4 m ρ c main_v8 = shapeCast _ (W3 m ρ c (Proc.devRef .tc main_arg14)) shapeCasts_S128_S1x128 := v8_of (W3 m ρ c)
  rw [e, eA]
  exact cast_row _ _

/-- The edge normalisation's shift, reshaped to one row. -/
theorem V4_main_v9 (c : Dev nD) : V4 m ρ c main_v9 = rowOf (m ((c : Thread nD τ).loc main_arg15)) := by
  have eA : W3 m ρ c (Proc.devRef .tc main_arg15) = m ((c : Thread nD τ).loc main_arg15) :=
    calc W3 m ρ c (Proc.devRef .tc main_arg15)
      _ = W2 m ρ c (Proc.devRef .tc main_arg15) := StableHlo.after_of_forall_not_mem (b := Proc.devRef .tc main_arg15) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W1 m ρ c (Proc.devRef .tc main_arg15) := StableHlo.after_of_forall_not_mem (b := Proc.devRef .tc main_arg15) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = m ((c : Thread nD τ).loc main_arg15) := rfl
  have e : V4 m ρ c main_v9 = shapeCast _ (W3 m ρ c (Proc.devRef .tc main_arg15)) shapeCasts_S128_S1x128 := v9_of (W3 m ρ c)
  rw [e, eA]
  exact cast_row _ _

end Cert.KernelIdeal.HostEdge

end
-- ==== Proof.HostNode.lean ====
/-
  What the node region finds in its eight input arrays, and where the program's two results end: the host operations
  between the two regions, read back. The aggregated edge array is the scatter-mean of the edge region's first output,
  the very host operations the reference applies to its updated edge array.
-/
import proofs.«414419_j60069412602312_1_alg».proof.Proof.Gen.KernelIdeal.Frame
import proofs.«414419_j60069412602312_1_alg».proof.Proof.Gen.ReferenceIdeal.Read
import proofs.«414419_j60069412602312_1_alg».proof.Proof.RowSpec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.HostNode

open Cert.KernelIdeal Cert.KernelIdeal.Gen Cert.RowSpec

/-- No operation of the named stretch writes the buffer: every written reference differs from it. -/
local macro "not_written" ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- A one-dimensional array recast as a single row is that row: the two indices have the same row-major position. -/
private theorem shapeCast_rowOf {C : Nat} (x : A1 C) (h : (⟨1, ![C]⟩ : Shape).ShapeCasts ⟨2, ![1, C]⟩) :
    shapeCast (⟨2, ![1, C]⟩ : Shape) x h = rowOf x := by
  funext i
  unfold rowOf
  refine shapeCast_apply x h i (ValueIdx.ix1 (i 1)) ?_
  rw [Shape.rowMajor_val_one, Shape.rowMajor_val_two]
  have h0 : (i 0).val < 1 := (i 0).isLt
  have h1 : (i 0).val = 0 := by omega
  rw [h1, Nat.zero_mul, Nat.zero_add]
  rfl

variable (m : (ℓ : Loc nD τ sig) → Buf (Elt Ideal) ℓ) (ρ : Dev nD → PrngReg)

/-- The edge region's first output array, at the region's exit. -/
theorem W5_main_v10_0 (c : Dev nD) : W5 m ρ c (Proc.devRef .tc main_v10_0) = (dat0 (V4 m ρ) c).arrAt 9 cfg0.N :=
  W5_arr m ρ c 9

/-- The program's second result is the edge region's second output array: nothing after the region writes it. -/
theorem W7_main_v10_1 (c : Dev nD) : W7 m ρ c (Proc.devRef .tc main_v10_1) = (dat0 (V4 m ρ) c).arrAt 10 cfg0.N :=
  calc W7 m ρ c (Proc.devRef .tc main_v10_1)
    _ = W6 m ρ c (Proc.devRef .tc main_v10_1) := W7_of_ne m ρ c main_v10_1 (by decide)
    _ = W5 m ρ c (Proc.devRef .tc main_v10_1) :=
        StableHlo.after_of_forall_not_mem (b := Proc.devRef .tc main_v10_1) _ _ (by not_written hostOps1)
    _ = (dat0 (V4 m ρ) c).arrAt 10 cfg0.N := W5_arr m ρ c 10

/-- The program's first result is the node region's output array. -/
theorem W7_main_v27 (c : Dev nD) : W7 m ρ c (Proc.devRef .tc main_v27) = (dat1 (V6 m ρ) c).arrAt 8 cfg1.N :=
  W7_arr m ρ c 8

/-- An input window's array of the node region leaves the region as it entered. -/
theorem V6_main_arg0 (c : Dev nD) : V6 m ρ c main_arg0 = (m ((c : Thread nD τ).loc main_arg0)) := by
  have h : W7 m ρ c (Proc.devRef .tc main_arg0) = W6 m ρ c (Proc.devRef .tc main_arg0) :=
    (W7_arr m ρ c 0).trans (((dat1 (V6 m ρ) c).arrAt_in 0 rfl _).trans (A_eq1 (V6 m ρ) c 0))
  exact h.symm.trans (W7_main_arg0 m ρ c)

theorem V6_main_arg8 (c : Dev nD) : V6 m ρ c main_arg8 = (m ((c : Thread nD τ).loc main_arg8)) := by
  have h : W7 m ρ c (Proc.devRef .tc main_arg8) = W6 m ρ c (Proc.devRef .tc main_arg8) :=
    (W7_arr m ρ c 2).trans (((dat1 (V6 m ρ) c).arrAt_in 2 rfl _).trans (A_eq1 (V6 m ρ) c 2))
  exact h.symm.trans (W7_main_arg8 m ρ c)

theorem V6_main_arg10 (c : Dev nD) : V6 m ρ c main_arg10 = (m ((c : Thread nD τ).loc main_arg10)) := by
  have h : W7 m ρ c (Proc.devRef .tc main_arg10) = W6 m ρ c (Proc.devRef .tc main_arg10) :=
    (W7_arr m ρ c 4).trans (((dat1 (V6 m ρ) c).arrAt_in 4 rfl _).trans (A_eq1 (V6 m ρ) c 4))
  exact h.symm.trans (W7_main_arg10 m ρ c)

/-- A bias argument no region takes as a window and no host operation writes: at the edge region's exit it is as launched. -/
private theorem W5_main_arg9 (c : Dev nD) : W5 m ρ c (Proc.devRef .tc main_arg9) = m ((c : Thread nD τ).loc main_arg9) := by
  have h6 : W6 m ρ c (Proc.devRef .tc main_arg9) = W5 m ρ c (Proc.devRef .tc main_arg9) :=
    StableHlo.after_of_forall_not_mem (b := Proc.devRef .tc main_arg9) _ _ (by not_written hostOps1)
  exact h6.symm.trans ((W7_of_ne m ρ c main_arg9 (by decide)).symm.trans (W7_main_arg9 m ρ c))
private theorem W5_main_arg11 (c : Dev nD) : W5 m ρ c (Proc.devRef .tc main_arg11) = m ((c : Thread nD τ).loc main_arg11) := by
  have h6 : W6 m ρ c (Proc.devRef .tc main_arg11) = W5 m ρ c (Proc.devRef .tc main_arg11) :=
    StableHlo.after_of_forall_not_mem (b := Proc.devRef .tc main_arg11) _ _ (by not_written hostOps1)
  exact h6.symm.trans ((W7_of_ne m ρ c main_arg11 (by decide)).symm.trans (W7_main_arg11 m ρ c))
private theorem W5_main_arg12 (c : Dev nD) : W5 m ρ c (Proc.devRef .tc main_arg12) = m ((c : Thread nD τ).loc main_arg12) := by
  have h6 : W6 m ρ c (Proc.devRef .tc main_arg12) = W5 m ρ c (Proc.devRef .tc main_arg12) :=
    StableHlo.after_of_forall_not_mem (b := Proc.devRef .tc main_arg12) _ _ (by not_written hostOps1)
  exact h6.symm.trans ((W7_of_ne m ρ c main_arg12 (by decide)).symm.trans (W7_main_arg12 m ρ c))
private theorem W5_main_arg13 (c : Dev nD) : W5 m ρ c (Proc.devRef .tc main_arg13) = m ((c : Thread nD τ).loc main_arg13) := by
  have h6 : W6 m ρ c (Proc.devRef .tc main_arg13) = W5 m ρ c (Proc.devRef .tc main_arg13) :=
    StableHlo.after_of_forall_not_mem (b := Proc.devRef .tc main_arg13) _ _ (by not_written hostOps1)
  exact h6.symm.trans ((W7_of_ne m ρ c main_arg13 (by decide)).symm.trans (W7_main_arg13 m ρ c))

theorem V6_main_v23 (c : Dev nD) : V6 m ρ c main_v23 = rowOf (m ((c : Thread nD τ).loc main_arg9)) := by
  have e : V6 m ρ c main_v23 = shapeCast S1x64 (W5 m ρ c (Proc.devRef .tc main_arg9)) shapeCasts_S64_S1x64 := by
    show StableHlo.after hostOps1 (W5 m ρ c) (Proc.devRef .tc main_v23) = _
    after_results; rfl
  rw [e, W5_main_arg9]
  exact shapeCast_rowOf _ _

theorem V6_main_v24 (c : Dev nD) : V6 m ρ c main_v24 = rowOf (m ((c : Thread nD τ).loc main_arg11)) := by
  have e : V6 m ρ c main_v24 = shapeCast S1x128 (W5 m ρ c (Proc.devRef .tc main_arg11)) shapeCasts_S128_S1x128 := by
    show StableHlo.after hostOps1 (W5 m ρ c) (Proc.devRef .tc main_v24) = _
    after_results; rfl
  rw [e, W5_main_arg11]
  exact shapeCast_rowOf _ _

theorem V6_main_v25 (c : Dev nD) : V6 m ρ c main_v25 = rowOf (m ((c : Thread nD τ).loc main_arg12)) := by
  have e : V6 m ρ c main_v25 = shapeCast S1x128 (W5 m ρ c (Proc.devRef .tc main_arg12)) shapeCasts_S128_S1x128 := by
    show StableHlo.after hostOps1 (W5 m ρ c) (Proc.devRef .tc main_v25) = _
    after_results; rfl
  rw [e, W5_main_arg12]
  exact shapeCast_rowOf _ _

theorem V6_main_v26 (c : Dev nD) : V6 m ρ c main_v26 = rowOf (m ((c : Thread nD τ).loc main_arg13)) := by
  have e : V6 m ρ c main_v26 = shapeCast S1x128 (W5 m ρ c (Proc.devRef .tc main_arg13)) shapeCasts_S128_S1x128 := by
    show StableHlo.after hostOps1 (W5 m ρ c) (Proc.devRef .tc main_v26) = _
    after_results; rfl
  rw [e, W5_main_arg13]
  exact shapeCast_rowOf _ _

/-- The destination indices at the edge region's exit: the second row of the edge-index argument as a vector, as the
    first host stretch wrote it; nothing later writes it. -/
private theorem W5_main_v3 (c : Dev nD) : W5 m ρ c (Proc.devRef .tc main_v3)
    = shapeCast S640000 (extractStridedSlice S1x640000 ![1, 0] (m ((c : Thread nD τ).loc main_arg1)) slices_S2x640000_S1x640000_1_0)
        shapeCasts_S1x640000_S640000 := by
  have h5 : W5 m ρ c (Proc.devRef .tc main_v3) = W4 m ρ c (Proc.devRef .tc main_v3) := W5_of_ne m ρ c main_v3 (by decide)
  have h4 : W4 m ρ c (Proc.devRef .tc main_v3) = W3 m ρ c (Proc.devRef .tc main_v3) :=
    StableHlo.after_of_forall_not_mem (b := Proc.devRef .tc main_v3) _ _ (by not_written hostOps0_3)
  have h3 : W3 m ρ c (Proc.devRef .tc main_v3) = W2 m ρ c (Proc.devRef .tc main_v3) :=
    StableHlo.after_of_forall_not_mem (b := Proc.devRef .tc main_v3) _ _ (by not_written hostOps0_2)
  have h2 : W2 m ρ c (Proc.devRef .tc main_v3) = W1 m ρ c (Proc.devRef .tc main_v3) :=
    StableHlo.after_of_forall_not_mem (b := Proc.devRef .tc main_v3) _ _ (by not_written hostOps0_1)
  have h1 : W1 m ρ c (Proc.devRef .tc main_v3)
      = shapeCast S640000 (extractStridedSlice S1x640000 ![1, 0] (m ((c : Thread nD τ).loc main_arg1)) slices_S2x640000_S1x640000_1_0)
          shapeCasts_S1x640000_S640000 := by
    show StableHlo.after hostOps0 (W0 m ρ c) (Proc.devRef .tc main_v3) = _
    after_results; rfl
  exact h5.trans (h4.trans (h3.trans (h2.trans h1)))

/-- The aggregated edge array the node region finds: if the edge region's first output is the reference's updated edge
    array, the scatter-mean of it over the destination indices is the reference's aggregated array. -/
theorem V6_main_v22 (c : Dev nD)
    (x0 : (⟨S100000x128, .f32⟩ : BufTy).Contents (Elt Ideal)) (x2 : (⟨S640000x128, .f32⟩ : BufTy).Contents (Elt Ideal))
    (x4 : (⟨S384x64, .f32⟩ : BufTy).Contents (Elt Ideal)) (x5 : (⟨S64, .f32⟩ : BufTy).Contents (Elt Ideal))
    (x6 : (⟨S64x128, .f32⟩ : BufTy).Contents (Elt Ideal)) (x7 : (⟨S128, .f32⟩ : BufTy).Contents (Elt Ideal))
    (he : W5 m ρ c (Proc.devRef .tc main_v10_0)
      = Cert.ReferenceIdeal.Read.val_main_v28 (F := Ideal) x0 (m ((c : Thread nD τ).loc main_arg1)) x2 x4 x5 x6 x7) :
    V6 m ρ c main_v22
      = Cert.ReferenceIdeal.Read.val_main_v40 (F := Ideal) x0 (m ((c : Thread nD τ).loc main_arg1)) x2 x4 x5 x6 x7 := by
  show StableHlo.after hostOps1 (W5 m ρ c) (Proc.devRef .tc main_v22) = _
  after_results_simp
  rw [he, W5_main_v3]
  unfold Cert.ReferenceIdeal.Read.val_main_v40 Cert.ReferenceIdeal.Read.val_main_v31 Cert.ReferenceIdeal.Read.val_main_v39
    Cert.ReferenceIdeal.Read.val_main_v38 Cert.ReferenceIdeal.Read.val_main_v37 Cert.ReferenceIdeal.Read.val_main_v35
    Cert.ReferenceIdeal.Read.val_main_v36 Cert.ReferenceIdeal.Read.val_main_v34 Cert.ReferenceIdeal.Read.val_main_v33
    Cert.ReferenceIdeal.Read.val_main_v32 Cert.ReferenceIdeal.Read.val_main_v30 Cert.ReferenceIdeal.Read.val_main_v29
    Cert.ReferenceIdeal.Read.val_main_v3 Cert.ReferenceIdeal.Read.val_main_v2
    Cert.ReferenceIdeal.Read.val_main_cst Cert.ReferenceIdeal.Read.val_main_cst_3 Cert.ReferenceIdeal.Read.val_main_cst_4
    Cert.ReferenceIdeal.Read.val_main_cst_5
  rfl

end Cert.KernelIdeal.HostNode

end
-- ==== Proof.Results.lean ====
/-
  The two results of the idealized kernel program, as functions of its arguments, and the value claim.

  The kernel program's second result is the edge region's second output array: the layer normalisation of the
  updated edge array `e + MLP [x[row], x[col], e]`, whose gathered rows are the reference's gathers because the
  indices are in range. Its first result is the node region's output: the layer normalisation of
  `x + MLP [x, agg]`, `agg` the scatter-mean of the updated edge array, which is the reference's own host chain
  applied to an equal array. Both are therefore the reference's stage functions of the arguments.
-/
import proofs.«414419_j60069412602312_1_alg».proof.Proof.Gen.KernelIdeal.Frame
import proofs.«414419_j60069412602312_1_alg».proof.Proof.Gen.ReferenceIdeal.Run
import proofs.«414419_j60069412602312_1_alg».proof.Proof.Gen.ReferenceIdeal.Read
import proofs.«414419_j60069412602312_1_alg».proof.Proof.Gen.Pre_finite_inputs
import proofs.«414419_j60069412602312_1_alg».proof.Proof.RowSpec
import proofs.«414419_j60069412602312_1_alg».proof.Proof.IndexRange
import proofs.«414419_j60069412602312_1_alg».proof.Proof.KernelRun
import proofs.«414419_j60069412602312_1_alg».proof.Proof.EdgeBlocks
import proofs.«414419_j60069412602312_1_alg».proof.Proof.NodeBlocks
import proofs.«414419_j60069412602312_1_alg».proof.Proof.RefEdge
import proofs.«414419_j60069412602312_1_alg».proof.Proof.RefNode
import proofs.«414419_j60069412602312_1_alg».proof.Proof.HostEdge
import proofs.«414419_j60069412602312_1_alg».proof.Proof.HostNode

set_option maxRecDepth 16384

noncomputable section

open Idealize.ShloMosaic Idealize.ShloMosaic.TcCoe Idealize.SL.Sem

namespace Cert.KernelIdeal.Results

open Cert.KernelIdeal Cert.KernelIdeal.Gen Cert.RowSpec
open Cert.ReferenceIdeal.Read (val_main_v28 val_main_v40 val_main_v51 val_main_v75 val_main_v99)

variable (m : (ℓ : Loc nD τ sig) → Buf (Elt Ideal) ℓ) (ρ : Dev nD → PrngReg)

/-- The edge region's first output is the reference's updated edge array of the arguments. -/
theorem edge_out (c : Dev nD) (h : InRange (m ((c : Thread nD τ).loc main_arg1))) :
    W5 m ρ c (Proc.devRef .tc main_v10_0)
      = val_main_v28 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  rw [Cert.KernelIdeal.HostNode.W5_main_v10_0, Cert.KernelIdeal.EdgeBlocks.final0_9 (V4 m ρ) c,
    Cert.KernelIdeal.HostEdge.V4_main_v4 m ρ c h, Cert.KernelIdeal.HostEdge.V4_main_v5 m ρ c h,
    Cert.KernelIdeal.HostEdge.V4_main_arg2, Cert.KernelIdeal.HostEdge.V4_main_arg4, Cert.KernelIdeal.HostEdge.V4_main_v6,
    Cert.KernelIdeal.HostEdge.V4_main_arg6, Cert.KernelIdeal.HostEdge.V4_main_v7]
  exact (Cert.ReferenceIdeal.EdgeStages.edge_eq _ _ _ _ _ _ _).symm

/-- The program's second result is the reference's second result of the arguments. -/
theorem result1 (c : Dev nD) (h : InRange (m ((c : Thread nD τ).loc main_arg1))) :
    W7 m ρ c (Proc.devRef .tc main_v10_1)
      = val_main_v99 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg14)) (m ((c : Thread nD τ).loc main_arg15)) := by
  rw [Cert.KernelIdeal.HostNode.W7_main_v10_1, Cert.KernelIdeal.EdgeBlocks.final0_10 (V4 m ρ) c,
    Cert.KernelIdeal.HostEdge.V4_main_v4 m ρ c h, Cert.KernelIdeal.HostEdge.V4_main_v5 m ρ c h,
    Cert.KernelIdeal.HostEdge.V4_main_arg2, Cert.KernelIdeal.HostEdge.V4_main_arg4, Cert.KernelIdeal.HostEdge.V4_main_v6,
    Cert.KernelIdeal.HostEdge.V4_main_arg6, Cert.KernelIdeal.HostEdge.V4_main_v7, Cert.KernelIdeal.HostEdge.V4_main_v8,
    Cert.KernelIdeal.HostEdge.V4_main_v9, ← Cert.ReferenceIdeal.EdgeStages.edge_eq]
  exact (Cert.ReferenceIdeal.EdgeStages.edge_norm_eq _ _ _ _ _ _ _ _ _).symm

/-- The program's first result is the reference's first result of the arguments. -/
theorem result0 (c : Dev nD) (h : InRange (m ((c : Thread nD τ).loc main_arg1))) :
    W7 m ρ c (Proc.devRef .tc main_v27)
      = val_main_v75 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [Cert.KernelIdeal.HostNode.W7_main_v27, Cert.KernelIdeal.NodeBlocks.final1_8 (V6 m ρ) c,
    Cert.KernelIdeal.HostNode.V6_main_v22 m ρ c _ _ _ _ _ _ (edge_out m ρ c h),
    Cert.KernelIdeal.HostNode.V6_main_arg0, Cert.KernelIdeal.HostNode.V6_main_arg8, Cert.KernelIdeal.HostNode.V6_main_v23,
    Cert.KernelIdeal.HostNode.V6_main_arg10, Cert.KernelIdeal.HostNode.V6_main_v24, Cert.KernelIdeal.HostNode.V6_main_v25,
    Cert.KernelIdeal.HostNode.V6_main_v26, ← Cert.ReferenceIdeal.NodeStages.node_eq]
  exact (Cert.ReferenceIdeal.NodeStages.node_norm_eq _ _ _ _ _ _ _ _ _ _ _ _ _).symm

end Cert.KernelIdeal.Results

end
-- ==== Proof.PreRange.lean ====
/-
  The precondition's last two conjuncts, decoded: every entry of the edge-index array is in `[0, 100000)`.
-/
import proofs.«414419_j60069412602312_1_alg».proof.Proof.Gen.Pre_finite_inputs
import proofs.«414419_j60069412602312_1_alg».proof.Proof.IndexRange
import Idealize.ShloMosaic.Lib.ReduceAll
import Idealize.ShloMosaic.Lib.Affine
import Idealize.ShloMosaic.Lib.StableHlo.Predicate

set_option maxRecDepth 16384

noncomputable section

open Idealize.ShloMosaic Idealize.ShloMosaic.TcCoe Idealize.SL.Sem

namespace Cert.Pre_finite_inputs.Range

open Cert.Pre_finite_inputs Cert.RowSpec

variable {F : FTy → Type} [FloatOps F]

/-- The scalar shape has exactly one index. -/
private instance subsingleton_scalar_idx : Subsingleton S_.Idx := ⟨fun a b => funext fun d => d.elim0⟩

/-- The last part of the conjunction: whatever the earlier conjuncts `p`, `q` are, if the result is one then both
    comparisons of the index array against the broadcast bounds hold at every entry. -/
private theorem part4_split (a1 : IVec S2x640000 32) (p q : IVec S_ 1) (j : S_.Idx)
    (h : fn_part4 (F := F) a1 p q j = 1#1) :
    (∀ i, IntOp.cmpi .sge (a1 i) 0#32 = 1#1) ∧ (∀ i, IntOp.cmpi .slt (a1 i) 100000#32 = 1#1) := by
  unfold fn_part4 at h
  dsimp only [andi] at h
  obtain ⟨h1, h75⟩ := IntOp.andi_eq_one.1 h
  obtain ⟨-, h71⟩ := IntOp.andi_eq_one.1 h1
  have g71 := Host.reduce_andi_all _ _ _ _ j h71
  have g75 := Host.reduce_andi_all _ _ _ _ j h75
  refine ⟨fun i => ?_, fun i => ?_⟩
  · have e := g71 i
    simpa only [cmpi, broadcastInDim, constantI] using e
  · have e := g75 i
    simpa only [cmpi, broadcastInDim, constantI] using e

/-- If the printed precondition is all ones, the index array (its second argument) is in range. The other fifteen
    arguments are arbitrary. -/
theorem inRange_of_fn (a0 : FVec F S100000x128 .f32) (a1 : IVec S2x640000 32) (a2 : FVec F S640000x128 .f32) (a3 : IVec S100000 32)
    (a4 : FVec F S384x64 .f32) (a5 : FVec F S64 .f32) (a6 : FVec F S64x128 .f32) (a7 : FVec F S128 .f32) (a8 : FVec F S256x64 .f32)
    (a9 : FVec F S64 .f32) (a10 : FVec F S64x128 .f32) (a11 a12 a13 a14 a15 : FVec F S128 .f32)
    (h : Cert.Pre_finite_inputs.fn (F := F) a0 a1 a2 a3 a4 a5 a6 a7 a8 a9 a10 a11 a12 a13 a14 a15 = (fun _ => 1#1)) :
    InRange a1 := by
  have h0 := congrFun h ValueIdx.ix0
  unfold fn fn_part1 fn_part2 fn_part3 at h0
  obtain ⟨hge, hlt⟩ := part4_split (F := F) a1 _ _ _ h0
  exact fun i => ⟨hge i, hlt i⟩

end Cert.Pre_finite_inputs.Range

end
-- ==== Proof.lean ====
/-
  The certificate of a graph-network layer: an edge update `e' = e + MLP [x[row], x[col], e]`, a node update
  `x' = x + MLP [x, mean of e' over incoming edges]`, and the layer normalisations of both, computed by two gridded
  kernels with the gathers and the scatter-mean on the host, against the same layer written with whole-array
  operations.

  Over the extended reals the two programs compute every entry by the same operations in the same order: a change of
  float format is the identity, a matrix product is the sum over the contracted index on both sides, a lane sum and a
  host sum are the same sum, and the blocks of 2000 rows the kernels work on tile the arrays. The one place they differ
  is the gather of node rows: the kernel's `take` fills rows whose index is out of range, the reference's indexing
  clamps; with every index in `[0, 100000)` (the precondition) both read the same row. The frames of the two kernel
  programs are the generated ones; the reference's frame is its run with the results dropped.
-/
import proofs.«414419_j60069412602312_1_alg».proof.Defs
import proofs.«414419_j60069412602312_1_alg».proof.Proof.Gen.Kernel
import proofs.«414419_j60069412602312_1_alg».proof.Proof.Gen.Kernel.Skeleton
import proofs.«414419_j60069412602312_1_alg».proof.Proof.Gen.Kernel.Launch
import proofs.«414419_j60069412602312_1_alg».proof.Proof.Gen.Kernel.Points
import proofs.«414419_j60069412602312_1_alg».proof.Proof.Gen.Kernel.Frame
import proofs.«414419_j60069412602312_1_alg».proof.Proof.Gen.KernelIdeal
import proofs.«414419_j60069412602312_1_alg».proof.Proof.Gen.KernelIdeal.Skeleton
import proofs.«414419_j60069412602312_1_alg».proof.Proof.Gen.KernelIdeal.Launch
import proofs.«414419_j60069412602312_1_alg».proof.Proof.Gen.KernelIdeal.Points
import proofs.«414419_j60069412602312_1_alg».proof.Proof.Gen.KernelIdeal.Frame
import proofs.«414419_j60069412602312_1_alg».proof.Proof.Gen.ReferenceIdeal
import proofs.«414419_j60069412602312_1_alg».proof.Proof.Gen.ReferenceIdeal.Run
import proofs.«414419_j60069412602312_1_alg».proof.Proof.Gen.ReferenceIdeal.Read
import proofs.«414419_j60069412602312_1_alg».proof.Proof.Gen.Pre_finite_inputs
import proofs.«414419_j60069412602312_1_alg».proof.Proof.KernelRun
import proofs.«414419_j60069412602312_1_alg».proof.Proof.Results
import proofs.«414419_j60069412602312_1_alg».proof.Proof.PreRange
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with each result at the reference's stage function of the (agreeing) arguments. -/
theorem algebraic : Cert.algebraic_KernelIdeal_ReferenceIdeal := by
  intro m ρ m' ρ' hpre hagree
  have hr : ∀ c : Dev Cert.KernelIdeal.nD, Cert.RowSpec.InRange (m ((c.tc : Thread Cert.KernelIdeal.nD Cert.KernelIdeal.τ).loc Cert.KernelIdeal.main_arg1)) := fun c =>
    Cert.Pre_finite_inputs.Range.inRange_of_fn _ _ _ _ _ _ _ _ _ _ _ _ _ _ _ _ (hpre c)
  refine ⟨fun c => Cert.ReferenceIdeal.Read.val_main_v75 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.ReferenceIdeal.Read.val_main_v99 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · refine (θ_run Cert.KernelIdeal.defs _ _).mono (fun r h c => ?_) (Cert.KernelIdeal.Run.run_all m ρ)
    exact ⟨(h c _ (Cert.KernelIdeal.Gen.mem_uc Cert.KernelIdeal.main_v27 (by decide))).trans (Cert.KernelIdeal.Results.result0 m ρ c (hr c)),
      (h c _ (Cert.KernelIdeal.Gen.mem_uc Cert.KernelIdeal.main_v10_1 (by decide))).trans (Cert.KernelIdeal.Results.result1 m ρ c (hr c)),
      (h c _ (Cert.KernelIdeal.Gen.mem_uc Cert.KernelIdeal.main_arg0 (by decide))).trans (Cert.KernelIdeal.Gen.W7_main_arg0 m ρ c),
      (h c _ (Cert.KernelIdeal.Gen.mem_uc Cert.KernelIdeal.main_arg1 (by decide))).trans (Cert.KernelIdeal.Gen.W7_main_arg1 m ρ c),
      (h c _ (Cert.KernelIdeal.Gen.mem_uc Cert.KernelIdeal.main_arg2 (by decide))).trans (Cert.KernelIdeal.Gen.W7_main_arg2 m ρ c),
      (h c _ (Cert.KernelIdeal.Gen.mem_uc Cert.KernelIdeal.main_arg3 (by decide))).trans (Cert.KernelIdeal.Gen.W7_main_arg3 m ρ c),
      (h c _ (Cert.KernelIdeal.Gen.mem_uc Cert.KernelIdeal.main_arg4 (by decide))).trans (Cert.KernelIdeal.Gen.W7_main_arg4 m ρ c),
      (h c _ (Cert.KernelIdeal.Gen.mem_uc Cert.KernelIdeal.main_arg5 (by decide))).trans (Cert.KernelIdeal.Gen.W7_main_arg5 m ρ c),
      (h c _ (Cert.KernelIdeal.Gen.mem_uc Cert.KernelIdeal.main_arg6 (by decide))).trans (Cert.KernelIdeal.Gen.W7_main_arg6 m ρ c),
      (h c _ (Cert.KernelIdeal.Gen.mem_uc Cert.KernelIdeal.main_arg7 (by decide))).trans (Cert.KernelIdeal.Gen.W7_main_arg7 m ρ c),
      (h c _ (Cert.KernelIdeal.Gen.mem_uc Cert.KernelIdeal.main_arg8 (by decide))).trans (Cert.KernelIdeal.Gen.W7_main_arg8 m ρ c),
      (h c _ (Cert.KernelIdeal.Gen.mem_uc Cert.KernelIdeal.main_arg9 (by decide))).trans (Cert.KernelIdeal.Gen.W7_main_arg9 m ρ c),
      (h c _ (Cert.KernelIdeal.Gen.mem_uc Cert.KernelIdeal.main_arg10 (by decide))).trans (Cert.KernelIdeal.Gen.W7_main_arg10 m ρ c),
      (h c _ (Cert.KernelIdeal.Gen.mem_uc Cert.KernelIdeal.main_arg11 (by decide))).trans (Cert.KernelIdeal.Gen.W7_main_arg11 m ρ c),
      (h c _ (Cert.KernelIdeal.Gen.mem_uc Cert.KernelIdeal.main_arg12 (by decide))).trans (Cert.KernelIdeal.Gen.W7_main_arg12 m ρ c),
      (h c _ (Cert.KernelIdeal.Gen.mem_uc Cert.KernelIdeal.main_arg13 (by decide))).trans (Cert.KernelIdeal.Gen.W7_main_arg13 m ρ c),
      (h c _ (Cert.KernelIdeal.Gen.mem_uc Cert.KernelIdeal.main_arg14 (by decide))).trans (Cert.KernelIdeal.Gen.W7_main_arg14 m ρ c),
      (h c _ (Cert.KernelIdeal.Gen.mem_uc Cert.KernelIdeal.main_arg15 (by decide))).trans (Cert.KernelIdeal.Gen.W7_main_arg15 m ρ c)⟩
  · refine (θ_run Cert.ReferenceIdeal.defs _ _).mono (fun r h c => ⟨?_, ?_, (h c).2.2⟩) (Cert.ReferenceIdeal.Value.run (F := Ideal) m' ρ')
    · obtain ⟨e0, e1, e2, e3, e4, e5, e6, e7, e8, e9, e10, e11, e12, e13, e14, e15⟩ := hagree c
      rw [(h c).1, Cert.ReferenceIdeal.Read.val_main_v75_eq, e0, e1, e2, e4, e5, e6, e7, e8, e9, e10, e11, e12, e13]
    · obtain ⟨e0, e1, e2, e3, e4, e5, e6, e7, e8, e9, e10, e11, e12, e13, e14, e15⟩ := hagree c
      rw [(h c).2.1, Cert.ReferenceIdeal.Read.val_main_v99_eq, e0, e1, e2, e4, e5, e6, e7, e14, e15]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
